-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32x128 : Shape := ⟨3, ![8192, 32, 128]⟩
abbrev S8x4096 : Shape := ⟨2, ![8, 4096]⟩
abbrev S4096x8 : Shape := ⟨2, ![4096, 8]⟩
abbrev S33x4096 : Shape := ⟨2, ![33, 4096]⟩
abbrev S4096x33 : Shape := ⟨2, ![4096, 33]⟩
abbrev S32 : Shape := ⟨1, ![32]⟩
abbrev S_ : Shape := ⟨0, ![]⟩

class Facts : Prop where
  bcast_S_S8192x32x128 : S_.BroadcastsInDim S8192x32x128 (![] : Fin 0 → Fin S8192x32x128.rank)
  reducesTo_S8192x32x128_S_d0_1_2 : S8192x32x128.ReducesTo [0, 1, 2] S_
  h_S_ : 0 < S_.numel
  bcast_S_S8x4096 : S_.BroadcastsInDim S8x4096 (![] : Fin 0 → Fin S8x4096.rank)
  reducesTo_S8x4096_S_d0_1 : S8x4096.ReducesTo [0, 1] S_
  bcast_S_S4096x8 : S_.BroadcastsInDim S4096x8 (![] : Fin 0 → Fin S4096x8.rank)
  reducesTo_S4096x8_S_d0_1 : S4096x8.ReducesTo [0, 1] S_
  bcast_S_S33x4096 : S_.BroadcastsInDim S33x4096 (![] : Fin 0 → Fin S33x4096.rank)
  reducesTo_S33x4096_S_d0_1 : S33x4096.ReducesTo [0, 1] S_
  bcast_S_S4096x33 : S_.BroadcastsInDim S4096x33 (![] : Fin 0 → Fin S4096x33.rank)
  reducesTo_S4096x33_S_d0_1 : S4096x33.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg4 : FVec F S33x4096 .f32) (main_arg5 : FVec F S33x4096 .f32) (main_arg6 : FVec F S4096x33 .f32) (main_arg7 : FVec F S32 .f32) (main_v13 : IVec S_ 1) (main_v16 : IVec S4096x8 1) : IVec S_ 1 :=
  let main_c_5 : IVec S_ 1 := constantI S_ 1 1#1
  let main_v17 : IVec S_ 1 := (fun x v => Host.reduce IntOp.andi x v reducesTo_S4096x8_S_d0_1 h_S_) main_v16 main_c_5
  let main_v18 : IVec S_ 1 := andi main_v13 main_v17
  let main_v19 : FVec F S33x4096 .f32 := Host.absf main_arg4
  let main_cst_6 : FVec F S_ .f32 := constant S_ .f32 0x7F800000#32
  let main_v20 : FVec F S33x4096 .f32 := broadcastInDim S33x4096 ![] bcast_S_S33x4096 main_cst_6
  let main_v21 : IVec S33x4096 1 := cmpf .olt main_v19 main_v20
  let main_c_7 : IVec S_ 1 := constantI S_ 1 1#1
  let main_v22 : IVec S_ 1 := (fun x v => Host.reduce IntOp.andi x v reducesTo_S33x4096_S_d0_1 h_S_) main_v21 main_c_7
  let main_v23 : IVec S_ 1 := andi main_v18 main_v22
  let main_v24 : FVec F S33x4096 .f32 := Host.absf main_arg5
  let main_cst_8 : FVec F S_ .f32 := constant S_ .f32 0x7F800000#32
  let main_v25 : FVec F S33x4096 .f32 := broadcastInDim S33x4096 ![] bcast_S_S33x4096 main_cst_8
  let main_v26 : IVec S33x4096 1 := cmpf .olt main_v24 main_v25
  let main_c_9 : IVec S_ 1 := constantI S_ 1 1#1
  let main_v27 : IVec S_ 1 := (fun x v => Host.reduce IntOp.andi x v reducesTo_S33x4096_S_d0_1 h_S_) main_v26 main_c_9
  let main_v28 : IVec S_ 1 := andi main_v23 main_v27
  let main_v29 : FVec F S4096x33 .f32 := Host.absf main_arg6
  let main_cst_10 : FVec F S_ .f32 := constant S_ .f32 0x7F800000#32
  let main_v30 : FVec F S4096x33 .f32 := broadcastInDim S4096x33 ![] bcast_S_S4096x33 main_cst_10
  let main_v31 : IVec S4096x33 1 := cmpf .olt main_v29 main_v30
  let main_c_11 : IVec S_ 1 := constantI S_ 1 1#1
  let main_v32 : IVec S_ 1 := (fun x v => Host.reduce IntOp.andi x v reducesTo_S4096x33_S_d0_1 h_S_) main_v31 main_c_11
  let main_v33 : IVec S_ 1 := andi main_v28 main_v32
  fn_part2 (F := F) main_arg7 main_v33

def fn {F : FTy → Type} [FloatOps F] (main_arg0 : FVec F S8192x32x128 .f32) (main_arg1 : FVec F S8x4096 .f32) (main_arg2 : FVec F S8x4096 .f32) (main_arg3 : FVec F S4096x8 .f32) (main_arg4 : FVec F S33x4096 .f32) (main_arg5 : FVec F S33x4096 .f32) (main_arg6 : FVec F S4096x33 .f32) (main_arg7 : FVec F S32 .f32) : IVec S_ 1 :=
  let main_v0 : FVec F S8192x32x128 .f32 := Host.absf main_arg0
  let main_cst : FVec F S_ .f32 := constant S_ .f32 0x7F800000#32
  let main_v1 : FVec F S8192x32x128 .f32 := broadcastInDim S8192x32x128 ![] bcast_S_S8192x32x128 main_cst
  let main_v2 : IVec S8192x32x128 1 := cmpf .olt main_v0 main_v1
  let main_c : IVec S_ 1 := constantI S_ 1 1#1
  let main_v3 : IVec S_ 1 := (fun x v => Host.reduce IntOp.andi x v reducesTo_S8192x32x128_S_d0_1_2 h_S_) main_v2 main_c
  let main_v4 : FVec F S8x4096 .f32 := Host.absf main_arg1
  let main_cst_0 : FVec F S_ .f32 := constant S_ .f32 0x7F800000#32
  let main_v5 : FVec F S8x4096 .f32 := broadcastInDim S8x4096 ![] bcast_S_S8x4096 main_cst_0
  let main_v6 : IVec S8x4096 1 := cmpf .olt main_v4 main_v5
  let main_c_1 : IVec S_ 1 := constantI S_ 1 1#1
  let main_v7 : IVec S_ 1 := (fun x v => Host.reduce IntOp.andi x v reducesTo_S8x4096_S_d0_1 h_S_) main_v6 main_c_1
  let main_v8 : IVec S_ 1 := andi main_v3 main_v7
  let main_v9 : FVec F S8x4096 .f32 := Host.absf main_arg2
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  let main_v14 : FVec F S4096x8 .f32 := Host.absf main_arg3
  let main_cst_4 : FVec F S_ .f32 := constant S_ .f32 0x7F800000#32
  let main_v15 : FVec F S4096x8 .f32 := broadcastInDim S4096x8 ![] bcast_S_S4096x8 main_cst_4
  let main_v16 : IVec S4096x8 1 := cmpf .olt main_v14 main_v15
  fn_part1 (F := F) main_arg4 main_arg5 main_arg6 main_arg7 main_v13 main_v16
-- ==== Kernel.lean ====
abbrev S8192x32x128 : Shape := ⟨3, ![8192, 32, 128]⟩
abbrev S8x4096 : Shape := ⟨2, ![8, 4096]⟩
abbrev S4096x8 : Shape := ⟨2, ![4096, 8]⟩
abbrev S33x4096 : Shape := ⟨2, ![33, 4096]⟩
abbrev S4096x33 : Shape := ⟨2, ![4096, 33]⟩
abbrev S32 : Shape := ⟨1, ![32]⟩
abbrev S41x4096 : Shape := ⟨2, ![41, 4096]⟩
abbrev S4096x41 : Shape := ⟨2, ![4096, 41]⟩
abbrev S8192x4096 : Shape := ⟨2, ![8192, 4096]⟩
abbrev S8192x1x1 : Shape := ⟨3, ![8192, 1, 1]⟩
abbrev S8192 : Shape := ⟨1, ![8192]⟩
abbrev S8192x32x1 : Shape := ⟨3, ![8192, 32, 1]⟩
abbrev S8192x32 : Shape := ⟨2, ![8192, 32]⟩
abbrev S1x32 : Shape := ⟨2, ![1, 32]⟩
abbrev S_ : Shape := ⟨0, ![]⟩
abbrev S8192x1 : Shape := ⟨2, ![8192, 1]⟩
abbrev S256x4096 : Shape := ⟨2, ![256, 4096]⟩
abbrev S256x1 : Shape := ⟨2, ![256, 1]⟩
abbrev S256x41 : Shape := ⟨2, ![256, 41]⟩

abbrev nBuf : Space → Nat
  | .hbm => 55
  | .vmem => 9
  | .smem => 0
  | _ => 0

abbrev bufTy : (tb : Table) → Fin (tcTables nBuf tb) → BufTy
  | .hbm, ⟨0, _⟩ => ⟨S8192x32x128, .f32⟩
  | .hbm, ⟨1, _⟩ => ⟨S8x4096, .f32⟩
  | .hbm, ⟨2, _⟩ => ⟨S8x4096, .f32⟩
  | .hbm, ⟨3, _⟩ => ⟨S4096x8, .f32⟩
  | .hbm, ⟨4, _⟩ => ⟨S33x4096, .f32⟩
  | .hbm, ⟨5, _⟩ => ⟨S33x4096, .f32⟩
  | .hbm, ⟨6, _⟩ => ⟨S4096x33, .f32⟩
  | .hbm, ⟨7, _⟩ => ⟨S32, .f32⟩
  | .hbm, ⟨8, _⟩ => ⟨S41x4096, .f32⟩
  | .hbm, ⟨9, _⟩ => ⟨S41x4096, .f32⟩
  | .hbm, ⟨10, _⟩ => ⟨S8x4096, .f32⟩
  | .hbm, ⟨11, _⟩ => ⟨S33x4096, .f32⟩
  | .hbm, ⟨12, _⟩ => ⟨S41x4096, .f32⟩
  | .hbm, ⟨13, _⟩ => ⟨S4096x41, .f32⟩
  | .hbm, ⟨14, _⟩ => ⟨S4096x41, .bf16⟩
  | .hbm, ⟨15, _⟩ => ⟨S4096x41, .f32⟩
  | .hbm, ⟨16, _⟩ => ⟨S4096x41, .bf16⟩
  | .hbm, ⟨17, _⟩ => ⟨S41x4096, .bf16⟩
  | .hbm, ⟨18, _⟩ => ⟨S8192x4096, .f32⟩
  | .hbm, ⟨19, _⟩ => ⟨S8192x1x1, .f32⟩
  | .hbm, ⟨20, _⟩ => ⟨S8192, .f32⟩
  | .hbm, ⟨21, _⟩ => ⟨S8192x32x1, .f32⟩
  | .hbm, ⟨22, _⟩ => ⟨S8192x32, .f32⟩
  | .hbm, ⟨23, _⟩ => ⟨S1x32, .f32⟩
  | .hbm, ⟨24, _⟩ => ⟨S8192x32, .f32⟩
  | .hbm, ⟨25, _⟩ => ⟨S8192x32, .f32⟩
  | .hbm, ⟨26, _⟩ => ⟨S_, .f32⟩
  | .hbm, ⟨27, _⟩ => ⟨S8192x32, .f32⟩
  | .hbm, ⟨28, _⟩ => ⟨S8192x32, .f32⟩
  | .hbm, ⟨29, _⟩ => ⟨S_, .f32⟩
  | .hbm, ⟨30, _⟩ => ⟨S8192x32, .f32⟩
  | .hbm, ⟨31, _⟩ => ⟨S8192x32, .i1⟩
  | .hbm, ⟨32, _⟩ => ⟨S8192x32, .f32⟩
  | .hbm, ⟨33, _⟩ => ⟨S_, .f32⟩
  | .hbm, ⟨34, _⟩ => ⟨S8192x32, .f32⟩
  | .hbm, ⟨35, _⟩ => ⟨S8192x32, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x32, .f32⟩
  | .hbm, ⟨40, _⟩ => ⟨S8192x32, .f32⟩
  | .hbm, ⟨41, _⟩ => ⟨S8192x32, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S8192x1, .f32⟩
  | .hbm, ⟨53, _⟩ => ⟨S8192x4096, .f32⟩
  | .hbm, ⟨54, _⟩ => ⟨S8192x32x128, .f32⟩
  | .local _ .vmem, ⟨0, _⟩ => ⟨S256x4096, .f32⟩
  | .local _ .vmem, ⟨1, _⟩ => ⟨S256x4096, .f32⟩
  | .local _ .vmem, ⟨2, _⟩ => ⟨S256x1, .f32⟩
  | .local _ .vmem, ⟨3, _⟩ => ⟨S256x1, .f32⟩
  | .local _ .vmem, ⟨4, _⟩ => ⟨S4096x41, .bf16⟩
  | .local _ .vmem, ⟨5, _⟩ => ⟨S4096x41, .bf16⟩
  | .local _ .vmem, ⟨6, _⟩ => ⟨S41x4096, .bf16⟩
  | .local _ .vmem, ⟨7, _⟩ => ⟨S256x4096, .f32⟩
  | .local _ .vmem, ⟨8, _⟩ => ⟨S256x4096, .f32⟩
  | _, _ => ⟨S8192x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x41 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x41 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S41x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S8x4096_S33x4096_S41x4096_d0 : Shape.Concatenates [S8x4096, S33x4096] S41x4096 0
  transposes_S4096x8_S8x4096_1_0 : S4096x8.Transposes [1, 0] S8x4096
  transposes_S4096x33_S33x4096_1_0 : S4096x33.Transposes [1, 0] S33x4096
  transposes_S41x4096_S4096x41_1_0 : S41x4096.Transposes [1, 0] S4096x41
  bitsLt_bf16_f32 : FTy.bits .bf16 < FTy.bits .f32
  shapeCasts_S8192x32x128_S8192x4096 : S8192x32x128.ShapeCasts S8192x4096
  slices_S8192x32x128_S8192x1x1_0_0_67 : S8192x32x128.Slices ![0, 0, 67] S8192x1x1
  shapeCasts_S8192x1x1_S8192 : S8192x1x1.ShapeCasts S8192
  slices_S8192x32x128_S8192x32x1_0_0_1 : S8192x32x128.Slices ![0, 0, 1] S8192x32x1
  shapeCasts_S8192x32x1_S8192x32 : S8192x32x1.ShapeCasts S8192x32
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S_S8192x32 : S_.BroadcastsInDim S8192x32 (![] : Fin 0 → Fin S8192x32.rank)
  reducesTo_S8192x32_S8192_d1 : S8192x32.ReducesTo [1] S8192
  h_S_ : 0 < S_.numel
  bcast_S8192_S8192x1_0 : S8192.BroadcastsInDim S8192x1 (![0] : Fin 1 → Fin S8192x1.rank)
  bcast_S8192x1_S8192x32_0_1 : S8192x1.BroadcastsInDim S8192x32 (![0, 1] : Fin 2 → Fin S8192x32.rank)
  shapeCasts_S8192x1_S8192 : S8192x1.ShapeCasts S8192
  bcast_S_S8192 : S_.BroadcastsInDim S8192 (![] : Fin 0 → Fin S8192.rank)
  shapeCasts_S8192_S8192x1 : S8192.ShapeCasts S8192x1
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x41_S4096x41_0_0 : ∀ a, (![0, 0] : Fin 2 → Nat) a + S4096x41.size a ≤ S4096x41.size a
  h_S4096x41 : 0 < S4096x41.numel
  shapeCasts_S4096x41_S4096x41 : S4096x41.ShapeCasts S4096x41
  inb_S41x4096_S41x4096_0_0 : ∀ a, (![0, 0] : Fin 2 → Nat) a + S41x4096.size a ≤ S41x4096.size a
  h_S41x4096 : 0 < S41x4096.numel
  shapeCasts_S41x4096_S41x4096 : S41x4096.ShapeCasts S41x4096
  slices_S256x4096_o0_5_S256x1 : S256x4096.Slices ![0, 5] S256x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x4096_S256x1_0_5 : ∀ a, (![0, 5] : Fin 2 → Nat) a + S256x1.size a ≤ S256x4096.size a
  shapeCasts_S8192x4096_S8192x32x128 : S8192x4096.ShapeCasts S8192x32x128
  dot_S256x4096_S4096x41_S256x41_1_0_0_1_n_n_wf : DotDims.WF S256x4096 S4096x41 S256x41 [1] [0] [0] [1] [] []
  dot_S256x41_S41x4096_S256x4096_1_0_0_1_n_n_wf : DotDims.WF S256x41 S41x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8192x1.size a
  hwx0_1 : ∀ i : grid0.Coords, EltTy.bits .f32 = 32 ∨ (Rect.block (s := S8192x1) S256x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x41.size a ≤ S4096x41.size a
  hwx0_2 : ∀ i : grid0.Coords, EltTy.bits .bf16 = 32 ∨ (Rect.block (s := S4096x41) S4096x41.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x41.size a ≤ S4096x41.size a
  hwx0_3 : ∀ i : grid0.Coords, EltTy.bits .bf16 = 32 ∨ (Rect.block (s := S4096x41) S4096x41.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S41x4096.size a ≤ S41x4096.size a
  hwx0_4 : ∀ i : grid0.Coords, EltTy.bits .bf16 = 32 ∨ (Rect.block (s := S41x4096) S41x4096.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S8192x4096.size a
  hwx0_5 : ∀ i : grid0.Coords, EltTy.bits .f32 = 32 ∨ (Rect.block (s := S8192x4096) S256x4096.size (cc0_transform_5 i) (hinb0_5 i)).WholeWords (EltTy.packing .f32)

variable [Facts₀]

def dot_S256x4096_S4096x41_S256x41_1_0_0_1_n_n : DotDims S256x4096 S4096x41 S256x41 where
  lhsContracting := [1]
  rhsContracting := [0]
  lhsNonContracting := [0]
  rhsNonContracting := [1]
  lhsBatch := []
  rhsBatch := []
  wf := dot_S256x4096_S4096x41_S256x41_1_0_0_1_n_n_wf
def dot_S256x41_S41x4096_S256x4096_1_0_0_1_n_n : DotDims S256x41 S41x4096 S256x4096 where
  lhsContracting := [1]
  rhsContracting := [0]
  lhsNonContracting := [0]
  rhsNonContracting := [1]
  lhsBatch := []
  rhsBatch := []
  wf := dot_S256x41_S41x4096_S256x4096_1_0_0_1_n_n_wf

abbrev win0_0 : Pipeline.Window sig grid0 :=
  Pipeline.Window.ofSpec (Memref.whole main_v10) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S4096x41.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S4096x41.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S41x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x32x128 : Shape := ⟨3, ![8192, 32, 128]⟩
abbrev S8x4096 : Shape := ⟨2, ![8, 4096]⟩
abbrev S4096x8 : Shape := ⟨2, ![4096, 8]⟩
abbrev S33x4096 : Shape := ⟨2, ![33, 4096]⟩
abbrev S4096x33 : Shape := ⟨2, ![4096, 33]⟩
abbrev S32 : Shape := ⟨1, ![32]⟩
abbrev S8192x4096 : Shape := ⟨2, ![8192, 4096]⟩
abbrev S8192x8 : Shape := ⟨2, ![8192, 8]⟩
abbrev S_ : Shape := ⟨0, ![]⟩
abbrev S8192x33 : Shape := ⟨2, ![8192, 33]⟩
abbrev S8192x1x1 : Shape := ⟨3, ![8192, 1, 1]⟩
abbrev S8192 : Shape := ⟨1, ![8192]⟩
abbrev S8192x32x1 : Shape := ⟨3, ![8192, 32, 1]⟩
abbrev S8192x32 : Shape := ⟨2, ![8192, 32]⟩
abbrev S1x32 : Shape := ⟨2, ![1, 32]⟩
abbrev S8192x1 : Shape := ⟨2, ![8192, 1]⟩
abbrev S1 : Shape := ⟨1, ![1]⟩
abbrev S2 : Shape := ⟨1, ![2]⟩

abbrev nBuf : Space → Nat
  | .hbm => 71
  | .vmem => 0
  | .smem => 0
  | _ => 0

abbrev bufTy : (tb : Table) → Fin (tcTables nBuf tb) → BufTy
  | .hbm, ⟨0, _⟩ => ⟨S8192x32x128, .f32⟩
  | .hbm, ⟨1, _⟩ => ⟨S8x4096, .f32⟩
  | .hbm, ⟨2, _⟩ => ⟨S8x4096, .f32⟩
  | .hbm, ⟨3, _⟩ => ⟨S4096x8, .f32⟩
  | .hbm, ⟨4, _⟩ => ⟨S33x4096, .f32⟩
  | .hbm, ⟨5, _⟩ => ⟨S33x4096, .f32⟩
  | .hbm, ⟨6, _⟩ => ⟨S4096x33, .f32⟩
  | .hbm, ⟨7, _⟩ => ⟨S32, .f32⟩
  | .hbm, ⟨8, _⟩ => ⟨S8192x4096, .f32⟩
  | .hbm, ⟨9, _⟩ => ⟨S4096x8, .f32⟩
  | .hbm, ⟨10, _⟩ => ⟨S8192x8, .f32⟩
  | .hbm, ⟨11, _⟩ => ⟨S_, .f32⟩
  | .hbm, ⟨12, _⟩ => ⟨S8192x8, .f32⟩
  | .hbm, ⟨13, _⟩ => ⟨S8192x8, .f32⟩
  | .hbm, ⟨14, _⟩ => ⟨S4096x8, .f32⟩
  | .hbm, ⟨15, _⟩ => ⟨S8192x8, .f32⟩
  | .hbm, ⟨16, _⟩ => ⟨S8192x8, .f32⟩
  | .hbm, ⟨17, _⟩ => ⟨S8x4096, .f32⟩
  | .hbm, ⟨18, _⟩ => ⟨S8192x4096, .f32⟩
  | .hbm, ⟨19, _⟩ => ⟨S4096x33, .f32⟩
  | .hbm, ⟨20, _⟩ => ⟨S8192x33, .f32⟩
  | .hbm, ⟨21, _⟩ => ⟨S_, .f32⟩
  | .hbm, ⟨22, _⟩ => ⟨S8192x33, .f32⟩
  | .hbm, ⟨23, _⟩ => ⟨S8192x33, .f32⟩
  | .hbm, ⟨24, _⟩ => ⟨S4096x33, .f32⟩
  | .hbm, ⟨25, _⟩ => ⟨S8192x33, .f32⟩
  | .hbm, ⟨26, _⟩ => ⟨S8192x33, .f32⟩
  | .hbm, ⟨27, _⟩ => ⟨S33x4096, .f32⟩
  | .hbm, ⟨28, _⟩ => ⟨S8192x4096, .f32⟩
  | .hbm, ⟨29, _⟩ => ⟨S8192x4096, .f32⟩
  | .hbm, ⟨30, _⟩ => ⟨S8192x1x1, .f32⟩
  | .hbm, ⟨31, _⟩ => ⟨S8192, .f32⟩
  | .hbm, ⟨32, _⟩ => ⟨S8192x32x1, .f32⟩
  | .hbm, ⟨33, _⟩ => ⟨S8192x32, .f32⟩
  | .hbm, ⟨34, _⟩ => ⟨S1x32, .f32⟩
  | .hbm, ⟨35, _⟩ => ⟨S8192x32, .f32⟩
  | .hbm, ⟨36, _⟩ => ⟨S8192x32, .f32⟩
  | .hbm, ⟨37, _⟩ => ⟨S_, .f32⟩
  | .hbm, ⟨38, _⟩ => ⟨S8192x32, .f32⟩
  | .hbm, ⟨39, _⟩ => ⟨S8192x32, .f32⟩
  | .hbm, ⟨40, _⟩ => ⟨S_, .f32⟩
  | .hbm, ⟨41, _⟩ => ⟨S8192x32, .f32⟩
  | .hbm, ⟨42, _⟩ => ⟨S8192x32, .i1⟩
  | .hbm, ⟨43, _⟩ => ⟨S8192x32, .f32⟩
  | .hbm, ⟨44, _⟩ => ⟨S_, .f32⟩
  | .hbm, ⟨45, _⟩ => ⟨S8192x32, .f32⟩
  | .hbm, ⟨46, _⟩ => ⟨S8192x32, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S8192x32, .f32⟩
  | .hbm, ⟨51, _⟩ => ⟨S8192x32, .f32⟩
  | .hbm, ⟨52, _⟩ => ⟨S8192x32, .f32⟩
  | .hbm, ⟨53, _⟩ => ⟨S_, .f32⟩
  | .hbm, ⟨54, _⟩ => ⟨S8192, .f32⟩
  | .hbm, ⟨55, _⟩ => ⟨S8192, .f32⟩
  | .hbm, ⟨56, _⟩ => ⟨S8192, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S8192, .f32⟩
  | .hbm, ⟨62, _⟩ => ⟨S8192x32x128, .f32⟩
  | .hbm, ⟨63, _⟩ => ⟨S8192x32x128, .f32⟩
  | .hbm, ⟨64, _⟩ => ⟨S8192, .f32⟩
  | .hbm, ⟨65, _⟩ => ⟨S_, .i32⟩
  | .hbm, ⟨66, _⟩ => ⟨S1, .i32⟩
  | .hbm, ⟨67, _⟩ => ⟨S_, .i32⟩
  | .hbm, ⟨68, _⟩ => ⟨S1, .i32⟩
  | .hbm, ⟨69, _⟩ => ⟨S2, .i32⟩
  | .hbm, ⟨70, _⟩ => ⟨S8192x32x128, .f32⟩
  | _, _ => ⟨S8192x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_cst : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst : Ref sig .tc := ⟨.hbm, 37, rfl⟩
abbrev main_v25 : Ref sig .tc := ⟨.hbm, 38, rfl⟩
abbrev main_v26 : Ref sig .tc := ⟨.hbm, 39, rfl⟩
abbrev main_cst_0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_1 : Ref sig .tc := ⟨.hbm, 44, rfl⟩
abbrev main_call2_v0 : Ref sig .tc := ⟨.hbm, 45, rfl⟩
abbrev main_v30 : Ref sig .tc := ⟨.hbm, 46, rfl⟩
abbrev main_cst_2 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_3 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_4 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c : Ref sig .tc := ⟨.hbm, 65, rfl⟩
abbrev main_v46 : Ref sig .tc := ⟨.hbm, 66, rfl⟩
abbrev main_c_5 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩

abbrev nD : Nat := 1
abbrev τ : Topo := Topo.v7x

variable {F : FTy → Type} [FloatOps F]

class Facts₀ : Prop where
  shapeCasts_S8192x32x128_S8192x4096 : S8192x32x128.ShapeCasts S8192x4096
  transposes_S8x4096_S4096x8_1_0 : S8x4096.Transposes [1, 0] S4096x8
  bcast_S_S8192x8 : S_.BroadcastsInDim S8192x8 (![] : Fin 0 → Fin S8192x8.rank)
  transposes_S4096x8_S8x4096_1_0 : S4096x8.Transposes [1, 0] S8x4096
  transposes_S33x4096_S4096x33_1_0 : S33x4096.Transposes [1, 0] S4096x33
  bcast_S_S8192x33 : S_.BroadcastsInDim S8192x33 (![] : Fin 0 → Fin S8192x33.rank)
  transposes_S4096x33_S33x4096_1_0 : S4096x33.Transposes [1, 0] S33x4096
  slices_S8192x32x128_S8192x1x1_0_0_67 : S8192x32x128.Slices ![0, 0, 67] S8192x1x1
  shapeCasts_S8192x1x1_S8192 : S8192x1x1.ShapeCasts S8192
  slices_S8192x32x128_S8192x32x1_0_0_1 : S8192x32x128.Slices ![0, 0, 1] S8192x32x1
  shapeCasts_S8192x32x1_S8192x32 : S8192x32x1.ShapeCasts S8192x32
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S_S8192x32 : S_.BroadcastsInDim S8192x32 (![] : Fin 0 → Fin S8192x32.rank)
  reducesTo_S8192x32_S8192_d1 : S8192x32.ReducesTo [1] S8192
  h_S_ : 0 < S_.numel
  bcast_S8192_S8192x1_0 : S8192.BroadcastsInDim S8192x1 (![0] : Fin 1 → Fin S8192x1.rank)
  bcast_S8192x1_S8192x32_0_1 : S8192x1.BroadcastsInDim S8192x32 (![0, 1] : Fin 2 → Fin S8192x32.rank)
  shapeCasts_S8192x1_S8192 : S8192x1.ShapeCasts S8192
  bcast_S_S8192 : S_.BroadcastsInDim S8192 (![] : Fin 0 → Fin S8192.rank)
  shapeCasts_S8192x4096_S8192x32x128 : S8192x4096.ShapeCasts S8192x32x128
  bcast_S_S1 : S_.BroadcastsInDim S1 (![] : Fin 0 → Fin S1.rank)
  concatenates_S1_S1_S2_d0 : Shape.Concatenates [S1, S1] S2 0
  dot_S8192x4096_S4096x8_S8192x8_1_0_0_1_n_n_wf : DotDims.WF S8192x4096 S4096x8 S8192x8 [1] [0] [0] [1] [] []
  dot_S8192x8_S8x4096_S8192x4096_1_0_0_1_n_n_wf : DotDims.WF S8192x8 S8x4096 S8192x4096 [1] [0] [0] [1] [] []
  dot_S8192x4096_S4096x33_S8192x33_1_0_0_1_n_n_wf : DotDims.WF S8192x4096 S4096x33 S8192x33 [1] [0] [0] [1] [] []
  dot_S8192x33_S33x4096_S8192x4096_1_0_0_1_n_n_wf : DotDims.WF S8192x33 S33x4096 S8192x4096 [1] [0] [0] [1] [] []
  scatter_S8192x32x128_S2_S8192_0_12_12_0_wf : ScatterDims.WF S8192x32x128 S2 S8192 [0] [1, 2] [1, 2] 0

variable [Facts₀]

def dot_S8192x4096_S4096x8_S8192x8_1_0_0_1_n_n : DotDims S8192x4096 S4096x8 S8192x8 where
  lhsContracting := [1]
  rhsContracting := [0]
  lhsNonContracting := [0]
  rhsNonContracting := [1]
  lhsBatch := []
  rhsBatch := []
  wf := dot_S8192x4096_S4096x8_S8192x8_1_0_0_1_n_n_wf
def dot_S8192x8_S8x4096_S8192x4096_1_0_0_1_n_n : DotDims S8192x8 S8x4096 S8192x4096 where
  lhsContracting := [1]
  rhsContracting := [0]
  lhsNonContracting := [0]
  rhsNonContracting := [1]
  lhsBatch := []
  rhsBatch := []
  wf := dot_S8192x8_S8x4096_S8192x4096_1_0_0_1_n_n_wf
def dot_S8192x4096_S4096x33_S8192x33_1_0_0_1_n_n : DotDims S8192x4096 S4096x33 S8192x33 where
  lhsContracting := [1]
  rhsContracting := [0]
  lhsNonContracting := [0]
  rhsNonContracting := [1]
  lhsBatch := []
  rhsBatch := []
  wf := dot_S8192x4096_S4096x33_S8192x33_1_0_0_1_n_n_wf
def dot_S8192x33_S33x4096_S8192x4096_1_0_0_1_n_n : DotDims S8192x33 S33x4096 S8192x4096 where
  lhsContracting := [1]
  rhsContracting := [0]
  lhsNonContracting := [0]
  rhsNonContracting := [1]
  lhsBatch := []
  rhsBatch := []
  wf := dot_S8192x33_S33x4096_S8192x4096_1_0_0_1_n_n_wf
def scatter_S8192x32x128_S2_S8192_0_12_12_0 : ScatterDims S8192x32x128 S2 S8192 where
  updateWindowDims := [0]
  insertedWindowDims := [1, 2]
  scatterDimsToOperandDims := [1, 2]
  indexVectorDim := 0
  wf := scatter_S8192x32x128_S2_S8192_0_12_12_0_wf

class Facts : Prop extends Facts₀ where

variable [Facts]
-- ==== Proof.KernelBlock.lean ====
/-
  What one run of the body leaves in the output block, index by index.

  The body stores the whole [256, 4096] block (the row's entries plus the feed-forward contribution) and then
  stores once more over column 5 alone (that column plus the per-row correction). So the block ends, at row
  `r` and column `f`, at the second store's value where `f = 5` and at the first store's everywhere else.
-/
import proofs.«403129_j46548855554094_3_alg».proof.Proof.Gen.KernelIdeal.Frame
import Idealize.ShloMosaic.Lib.Pipeline.Value
import Idealize.ShloMosaic.Lib.ValueIdx

set_option maxRecDepth 16384

noncomputable section

namespace Cert.KernelIdeal.Block

open Idealize.ShloMosaic Idealize.ShloMosaic.TcCoe Idealize.ShloMosaic.Tactic Idealize.ShloMosaic.ValueIdx
open Idealize.SL Idealize.SL.Sem
open Cert.KernelIdeal Cert.KernelIdeal.Gen

variable {F : FTy → Type} [FloatOps F]

/-- The zero offsets of a rank-2 rectangle, as the function the library's lemmas ask for. -/
theorem zeros2 : (![0, 0] : Fin 2 → Nat) = fun _ => 0 := by
  funext a; match a with | ⟨0, _⟩ => rfl | ⟨1, _⟩ => rfl

/-- The block as the two stores, the later one first: column 5 over the whole block. -/
theorem block_eq_canon (c : Dev nD) (i : grid0.Coords) (arg1 : Memref sig .tc .vmem S256x4096 .f32) (harg1 : arg1.IsWhole) (arg2 : Memref sig .tc .vmem S256x1 .f32) (harg2 : arg2.IsWhole) (arg3 : Memref sig .tc .vmem S4096x41 .bf16) (harg3 : arg3.IsWhole) (arg4 : Memref sig .tc .vmem S4096x41 .bf16) (harg4 : arg4.IsWhole) (arg5 : Memref sig .tc .vmem S41x4096 .bf16) (harg5 : arg5.IsWhole) (arg6 : Memref sig .tc .vmem S256x4096 .f32) (harg6 : arg6.IsWhole)
    (x0 : Vec F S256x4096 .f32) (x1 : Vec F S256x1 .f32) (x2 : Vec F S4096x41 .bf16) (x3 : Vec F S4096x41 .bf16) (x4 : Vec F S41x4096 .bf16) :
    out0_A_5 c i arg1 harg1 arg2 harg2 arg3 harg3 arg4 harg4 arg5 harg5 arg6 harg6 x0 x1 x2 x3 x4
      = View.canon [(⟨Rect.unit ![0, 5] ![256, 1] inb_S256x4096_S256x1_0_5, k0_pay2 x0 x2 x3 x4 x1⟩ : View.Piece (Elt F) S256x4096 .f32),
          ⟨Rect.unit ![0, 0] ![256, 4096] inb_S256x4096_S256x4096_0_0, k0_pay1 x0 x2 x3 x4⟩] := by
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  sl_unfold_words
  simp only [View.readAt_eq_ld, harg1.read_unread, harg2.read_unread, harg3.read_unread, harg4.read_unread, harg5.read_unread,
    View.ld_unit_zero (S := S256x4096) zeros2, View.ld_unit_zero (S := S256x1) zeros2, View.ld_unit_zero (S := S4096x41) zeros2,
    View.ld_unit_zero (S := S41x4096) zeros2]

/-- Two stores into a [256, 4096] block, a [256, 1] column at column 5 AFTER the whole block: at row `r`, column `f`
    the block holds the column store's value where `f = 5` and the block store's elsewhere. Stated for any two
    stored values. -/
theorem canon_column_over_block {Val : EltTy → Type} [∀ e, Nonempty (Val e)]
    (inb5 : ∀ a, (![0, 5] : Fin 2 → Nat) a + (![256, 1] : Fin 2 → Nat) a ≤ S256x4096.size a)
    (inb0 : ∀ a, (![0, 0] : Fin 2 → Nat) a + S256x4096.size a ≤ S256x4096.size a)
    (w2 : S256x1.Idx → Val .f32) (w1 : S256x4096.Idx → Val .f32) (r : Fin 256) (f : Fin 4096) :
    View.canon [(⟨Rect.unit ![0, 5] ![256, 1] inb5, w2⟩ : View.Piece Val S256x4096 .f32), ⟨Rect.unit ![0, 0] S256x4096.size inb0, w1⟩] (ix2 r f)
      = if f.val = 5 then w2 (ix2 r 0) else w1 (ix2 r f) := by
  by_cases h5 : f.val = 5
  · rw [if_pos h5]
    have e : (Rect.unit (s := S256x4096) ![0, 5] ![256, 1] inb5).emb (ix2 r (0 : Fin 1)) = ix2 r f :=
      funext fun a => Fin.ext (by
        match a with
        | ⟨0, _⟩ => show 0 + 1 * r.val = r.val; omega
        | ⟨1, _⟩ => show 5 + 1 * 0 = f.val; omega)
    have h := View.canon_cons_emb (Val := Val) (Rect.unit (s := S256x4096) ![0, 5] ![256, 1] inb5) w2
      [(⟨Rect.unit ![0, 0] S256x4096.size inb0, w1⟩ : View.Piece Val S256x4096 .f32)] (ix2 r (0 : Fin 1))
    rw [e] at h
    exact h
  · rw [if_neg h5]
    have hn : ix2 r f ∉ (Rect.unit (s := S256x4096) ![0, 5] ![256, 1] inb5).set := by
      intro hm
      have h := (Rect.mem_set_unit.1 hm) ⟨1, Nat.one_lt_two⟩
      have h1 : 5 ≤ f.val ∧ f.val < 5 + 1 := h
      omega
    refine (View.canon_cons_of_not_mem (⟨Rect.unit ![0, 5] ![256, 1] inb5, w2⟩ : View.Piece Val S256x4096 .f32)
      [(⟨Rect.unit ![0, 0] S256x4096.size inb0, w1⟩ : View.Piece Val S256x4096 .f32)] hn).trans ?_
    exact congrFun (View.canon_unit_zero (S := S256x4096) zeros2 inb0 w1) (ix2 r f)

/-- The block at row `r`, column `f`: the column store's value at `f = 5`, the block store's elsewhere. -/
theorem block_apply (c : Dev nD) (i : grid0.Coords) (arg1 : Memref sig .tc .vmem S256x4096 .f32) (harg1 : arg1.IsWhole) (arg2 : Memref sig .tc .vmem S256x1 .f32) (harg2 : arg2.IsWhole) (arg3 : Memref sig .tc .vmem S4096x41 .bf16) (harg3 : arg3.IsWhole) (arg4 : Memref sig .tc .vmem S4096x41 .bf16) (harg4 : arg4.IsWhole) (arg5 : Memref sig .tc .vmem S41x4096 .bf16) (harg5 : arg5.IsWhole) (arg6 : Memref sig .tc .vmem S256x4096 .f32) (harg6 : arg6.IsWhole)
    (x0 : Vec F S256x4096 .f32) (x1 : Vec F S256x1 .f32) (x2 : Vec F S4096x41 .bf16) (x3 : Vec F S4096x41 .bf16) (x4 : Vec F S41x4096 .bf16)
    (r : Fin 256) (f : Fin 4096) :
    out0_A_5 c i arg1 harg1 arg2 harg2 arg3 harg3 arg4 harg4 arg5 harg5 arg6 harg6 x0 x1 x2 x3 x4 (ix2 r f)
      = if f.val = 5 then k0_pay2 x0 x2 x3 x4 x1 (ix2 r 0) else k0_pay1 x0 x2 x3 x4 (ix2 r f) := by
  rw [block_eq_canon c i arg1 harg1 arg2 harg2 arg3 harg3 arg4 harg4 arg5 harg5 arg6 harg6 x0 x1 x2 x3 x4]
  exact canon_column_over_block (Val := Elt F) inb_S256x4096_S256x1_0_5 inb_S256x4096_S256x4096_0_0 (k0_pay2 x0 x2 x3 x4 x1) (k0_pay1 x0 x2 x3 x4) r f

end Cert.KernelIdeal.Block

end
-- ==== Proof.GatedFfn.lean ====
/-
  The mathematics both programs compute, as plain functions on the extended reals.

  A gated feed-forward branch with hidden width `H` over a row `X` of `K` features: hidden unit `h` is
  `max ⟨X, U h⟩ z · ⟨X, G h⟩` (a rectified up-projection times a gate projection, `z` the value the zero word
  denotes), and the branch's contribution to output feature `f` is the sum over `h` of the unit times the
  down weight `D h`. Two branches of widths `H₁` and `H₂` add up to ONE branch of width `H₁ + H₂` whose
  weights are the two branches' stacked: the hidden sum splits at `H₁`, which needs only that addition on the
  extended reals is associative and commutative, so it holds at the infinities too.

  The result at batch row `b` and flat feature `f` is the row's entry plus both branches' contributions, and at
  the one patched feature (flat index 5) a per-row correction `C b` is added on top.
-/
import Idealize.ShloMosaic.PureOps.Ideal
import Idealize.ShloMosaic.Lib.ValueIdx

noncomputable section

namespace Cert.GatedFfn

open Idealize.ShloMosaic

/-- What the f32 zero word denotes at the ideal values (kept as the word: both programs spell it so). -/
abbrev z : EReal := Ideal.ofBits .f32 0x00000000#32

/-- One hidden unit: the rectified up-projection of the row times its gate projection. -/
def unit {K : ℕ} (X U G : Fin K → EReal) : EReal := max (∑ k, X k * U k) z * ∑ k, X k * G k

/-- One branch's contribution to one output feature: the hidden units times their down weights, summed. -/
def delta {K H : ℕ} (X : Fin K → EReal) (U G : Fin H → Fin K → EReal) (D : Fin H → EReal) : EReal :=
  ∑ h, unit X (U h) (G h) * D h

/-- Stacking two branches' weights gives one branch whose contribution is the two contributions' sum. -/
theorem delta_append {K H₁ H₂ : ℕ} (X : Fin K → EReal) (U₁ G₁ : Fin H₁ → Fin K → EReal) (D₁ : Fin H₁ → EReal)
    (U₂ G₂ : Fin H₂ → Fin K → EReal) (D₂ : Fin H₂ → EReal) :
    delta X (Fin.append U₁ U₂) (Fin.append G₁ G₂) (Fin.append D₁ D₂) = delta X U₁ G₁ D₁ + delta X U₂ G₂ D₂ := by
  unfold delta
  rw [Fin.sum_univ_add]
  simp only [Fin.append_left, Fin.append_right]

/-- Row `b`, flat feature `f` of a [B, 32, 128] array read as [B, 4096]: position `f / 128`, channel `f % 128`. -/
def flatRow {α : Type} {B : ℕ} (x : (⟨3, ![B, 32, 128]⟩ : Shape).Idx → α) (b : Fin B) (f : Fin 4096) : α :=
  x (ValueIdx.ix3 b ⟨f.val / 128, by have := f.isLt; omega⟩ ⟨f.val % 128, Nat.mod_lt _ (by decide)⟩)

/-- A rank-2 array as a function of its two coordinates. -/
abbrev c2 {α : Type} {n0 n1 : ℕ} (x : (⟨2, ![n0, n1]⟩ : Shape).Idx → α) (a : Fin n0) (b : Fin n1) : α :=
  x (ValueIdx.ix2 a b)

/-- The row's entry plus the two branches' contributions (widths 8 and 33; up and gate weights are
    [H, 4096], down weights [4096, H]). -/
def base (X : Fin 8192 → Fin 4096 → EReal) (u₁ g₁ : Fin 8 → Fin 4096 → EReal) (d₁ : Fin 4096 → Fin 8 → EReal)
    (u₂ g₂ : Fin 33 → Fin 4096 → EReal) (d₂ : Fin 4096 → Fin 33 → EReal) (b : Fin 8192) (f : Fin 4096) : EReal :=
  X b f + (delta (X b) u₁ g₁ (fun h => d₁ f h) + delta (X b) u₂ g₂ (fun h => d₂ f h))

/-- The whole result: `base`, with the per-row correction added at flat feature 5. -/
def target (X : Fin 8192 → Fin 4096 → EReal) (u₁ g₁ : Fin 8 → Fin 4096 → EReal) (d₁ : Fin 4096 → Fin 8 → EReal)
    (u₂ g₂ : Fin 33 → Fin 4096 → EReal) (d₂ : Fin 4096 → Fin 33 → EReal) (C : Fin 8192 → EReal)
    (b : Fin 8192) (f : Fin 4096) : EReal :=
  if f.val = 5 then base X u₁ g₁ d₁ u₂ g₂ d₂ b f + C b else base X u₁ g₁ d₁ u₂ g₂ d₂ b f

end Cert.GatedFfn

end
-- ==== Proof.KernelPayload.lean ====
/-
  The kernel body's two stored values, read at an index over the extended reals.

  The body forms, for a block of 256 rows, `x + ((max (x·Wup) z ⊙ (x·Wgate)) · Wdown)`: three contractions, each into a
  zero accumulator, so each is the plain sum of products over its contracted axis (4096 features twice, 41 hidden units
  once). Read at row `r` and feature `f` that is the row's entry plus the one stacked branch's contribution `delta`: the
  hidden sum over `h` of `max ⟨x r, Wup · h⟩ z * ⟨x r, Wgate · h⟩` times `Wdown h f`. The casts between the two float
  widths are the identity on the extended reals, and every reshape is from a shape to itself.

  The second stored value is column 5 of the first (a unit-stride slice at offsets (0, 5), so its entry (r, 0) is the
  first value's entry (r, 5)) plus the per-row correction.
-/
import proofs.«403129_j46548855554094_3_alg».proof.Proof.Gen.KernelIdeal.Skeleton
import proofs.«403129_j46548855554094_3_alg».proof.Proof.GatedFfn
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Cert.GatedFfn Idealize.ShloMosaic Idealize.ShloMosaic.ValueIdx

/-! ## The operand indices of the two contraction geometries

  Both contract the left operand's axis 1 with the right operand's axis 0 and have no batch axis: at output index `i` and
  contraction index `q` the left operand is read at `(i 0, q)` and the right at `(q, i 1)`. One statement per operand
  and axis. -/

theorem up_lhs_0 (i : S256x41.Idx) (q : dot_S256x4096_S4096x41_S256x41_1_0_0_1_n_n.contr.Idx) :
    (dot_S256x4096_S4096x41_S256x41_1_0_0_1_n_n.lhsIdx i q 0).val = (i 0).val := by
  unfold DotDims.lhsIdx
  rw [dif_neg (show ¬(0 : Fin S256x4096.rank) ∈ dot_S256x4096_S4096x41_S256x41_1_0_0_1_n_n.lhsBatch by decide), dif_pos (show (0 : Fin S256x4096.rank) ∈ dot_S256x4096_S4096x41_S256x41_1_0_0_1_n_n.lhsNonContracting by decide)]
  rfl
theorem up_lhs_1 (i : S256x41.Idx) (q : dot_S256x4096_S4096x41_S256x41_1_0_0_1_n_n.contr.Idx) :
    (dot_S256x4096_S4096x41_S256x41_1_0_0_1_n_n.lhsIdx i q 1).val = (q ⟨0, by decide⟩).val :=
  dot_S256x4096_S4096x41_S256x41_1_0_0_1_n_n.lhsIdx_val_of_single rfl i q
theorem up_rhs_0 (i : S256x41.Idx) (q : dot_S256x4096_S4096x41_S256x41_1_0_0_1_n_n.contr.Idx) :
    (dot_S256x4096_S4096x41_S256x41_1_0_0_1_n_n.rhsIdx i q 0).val = (q ⟨0, by decide⟩).val :=
  dot_S256x4096_S4096x41_S256x41_1_0_0_1_n_n.rhsIdx_val_of_single rfl i q
theorem up_rhs_1 (i : S256x41.Idx) (q : dot_S256x4096_S4096x41_S256x41_1_0_0_1_n_n.contr.Idx) :
    (dot_S256x4096_S4096x41_S256x41_1_0_0_1_n_n.rhsIdx i q 1).val = (i 1).val := by
  unfold DotDims.rhsIdx
  rw [dif_neg (show ¬(1 : Fin S4096x41.rank) ∈ dot_S256x4096_S4096x41_S256x41_1_0_0_1_n_n.rhsBatch by decide), dif_pos (show (1 : Fin S4096x41.rank) ∈ dot_S256x4096_S4096x41_S256x41_1_0_0_1_n_n.rhsNonContracting by decide)]
  rfl

theorem down_lhs_0 (i : S256x4096.Idx) (q : dot_S256x41_S41x4096_S256x4096_1_0_0_1_n_n.contr.Idx) :
    (dot_S256x41_S41x4096_S256x4096_1_0_0_1_n_n.lhsIdx i q 0).val = (i 0).val := by
  unfold DotDims.lhsIdx
  rw [dif_neg (show ¬(0 : Fin S256x41.rank) ∈ dot_S256x41_S41x4096_S256x4096_1_0_0_1_n_n.lhsBatch by decide), dif_pos (show (0 : Fin S256x41.rank) ∈ dot_S256x41_S41x4096_S256x4096_1_0_0_1_n_n.lhsNonContracting by decide)]
  rfl
theorem down_lhs_1 (i : S256x4096.Idx) (q : dot_S256x41_S41x4096_S256x4096_1_0_0_1_n_n.contr.Idx) :
    (dot_S256x41_S41x4096_S256x4096_1_0_0_1_n_n.lhsIdx i q 1).val = (q ⟨0, by decide⟩).val :=
  dot_S256x41_S41x4096_S256x4096_1_0_0_1_n_n.lhsIdx_val_of_single rfl i q
theorem down_rhs_0 (i : S256x4096.Idx) (q : dot_S256x41_S41x4096_S256x4096_1_0_0_1_n_n.contr.Idx) :
    (dot_S256x41_S41x4096_S256x4096_1_0_0_1_n_n.rhsIdx i q 0).val = (q ⟨0, by decide⟩).val :=
  dot_S256x41_S41x4096_S256x4096_1_0_0_1_n_n.rhsIdx_val_of_single rfl i q
theorem down_rhs_1 (i : S256x4096.Idx) (q : dot_S256x41_S41x4096_S256x4096_1_0_0_1_n_n.contr.Idx) :
    (dot_S256x41_S41x4096_S256x4096_1_0_0_1_n_n.rhsIdx i q 1).val = (i 1).val := by
  unfold DotDims.rhsIdx
  rw [dif_neg (show ¬(1 : Fin S41x4096.rank) ∈ dot_S256x41_S41x4096_S256x4096_1_0_0_1_n_n.rhsBatch by decide), dif_pos (show (1 : Fin S41x4096.rank) ∈ dot_S256x41_S41x4096_S256x4096_1_0_0_1_n_n.rhsNonContracting by decide)]
  rfl

/-! ## Each contraction into the zero accumulator is a sum over its contracted axis -/

/-- A [256,4096] × [4096,41] contraction at (r, c): the sum over the 4096 features. -/
theorem up_apply (lhs : FVec Ideal S256x4096 .bf16) (rhs : FVec Ideal S4096x41 .bf16) (r : Fin 256) (c : Fin 41) :
    matmul (F := Ideal) dot_S256x4096_S4096x41_S256x41_1_0_0_1_n_n none lhs rhs (constant (F := Ideal) S256x41 .f32 0x00000000#32) (ix2 r c)
      = ∑ k : Fin 4096, lhs (ix2 r k) * rhs (ix2 k c) := by
  simp only [matmul]
  rw [Ideal.matmul_constant_zero_apply, ← Equiv.sum_comp (contrEquiv1 dot_S256x4096_S4096x41_S256x41_1_0_0_1_n_n 4096 rfl rfl).symm]
  refine Finset.sum_congr rfl fun k _ => ?_
  have hk := contrEquiv1_symm_val dot_S256x4096_S4096x41_S256x41_1_0_0_1_n_n 4096 rfl rfl k
  have el : dot_S256x4096_S4096x41_S256x41_1_0_0_1_n_n.lhsIdx (ix2 r c) ((contrEquiv1 dot_S256x4096_S4096x41_S256x41_1_0_0_1_n_n 4096 rfl rfl).symm k) = ix2 r k := funext fun a => Fin.ext (by
    match a with
    | ⟨0, _⟩ => exact up_lhs_0 _ _
    | ⟨1, _⟩ => exact (up_lhs_1 _ _).trans hk)
  have er : dot_S256x4096_S4096x41_S256x41_1_0_0_1_n_n.rhsIdx (ix2 r c) ((contrEquiv1 dot_S256x4096_S4096x41_S256x41_1_0_0_1_n_n 4096 rfl rfl).symm k) = ix2 k c := funext fun a => Fin.ext (by
    match a with
    | ⟨0, _⟩ => exact (up_rhs_0 _ _).trans hk
    | ⟨1, _⟩ => exact up_rhs_1 _ _)
  rw [el, er]

/-- A [256,41] × [41,4096] contraction at (r, c): the sum over the 41 hidden units. -/
theorem down_apply (lhs : FVec Ideal S256x41 .bf16) (rhs : FVec Ideal S41x4096 .bf16) (r : Fin 256) (c : Fin 4096) :
    matmul (F := Ideal) dot_S256x41_S41x4096_S256x4096_1_0_0_1_n_n none lhs rhs (constant (F := Ideal) S256x4096 .f32 0x00000000#32) (ix2 r c)
      = ∑ k : Fin 41, lhs (ix2 r k) * rhs (ix2 k c) := by
  simp only [matmul]
  rw [Ideal.matmul_constant_zero_apply, ← Equiv.sum_comp (contrEquiv1 dot_S256x41_S41x4096_S256x4096_1_0_0_1_n_n 41 rfl rfl).symm]
  refine Finset.sum_congr rfl fun k _ => ?_
  have hk := contrEquiv1_symm_val dot_S256x41_S41x4096_S256x4096_1_0_0_1_n_n 41 rfl rfl k
  have el : dot_S256x41_S41x4096_S256x4096_1_0_0_1_n_n.lhsIdx (ix2 r c) ((contrEquiv1 dot_S256x41_S41x4096_S256x4096_1_0_0_1_n_n 41 rfl rfl).symm k) = ix2 r k := funext fun a => Fin.ext (by
    match a with
    | ⟨0, _⟩ => exact down_lhs_0 _ _
    | ⟨1, _⟩ => exact (down_lhs_1 _ _).trans hk)
  have er : dot_S256x41_S41x4096_S256x4096_1_0_0_1_n_n.rhsIdx (ix2 r c) ((contrEquiv1 dot_S256x41_S41x4096_S256x4096_1_0_0_1_n_n 41 rfl rfl).symm k) = ix2 k c := funext fun a => Fin.ext (by
    match a with
    | ⟨0, _⟩ => exact (down_rhs_0 _ _).trans hk
    | ⟨1, _⟩ => exact down_rhs_1 _ _)
  rw [el, er]

/-! ## The two stored values at an index -/

/-- The first stored value at row `r`, feature `f`: the row's entry plus the stacked branch's contribution. -/
theorem pay1_apply (xb : Vec Ideal S256x4096 .f32) (wu wg : Vec Ideal S4096x41 .bf16) (wd : Vec Ideal S41x4096 .bf16) (r : Fin 256) (f : Fin 4096) :
    k0_pay1 (F := Ideal) xb wu wg wd (ix2 r f)
      = xb (ix2 r f) + delta (fun k => xb (ix2 r k)) (fun h k => wu (ix2 k h)) (fun h k => wg (ix2 k h)) (fun h => wd (ix2 h f)) := by
  unfold k0_pay1
  simp only [shapeCast_self]
  refine (addf_apply _ _ _).trans ?_
  refine congrArg (xb (ix2 r f) + ·) ?_
  refine (down_apply _ _ r f).trans ?_
  unfold delta Cert.GatedFfn.unit
  refine Finset.sum_congr rfl fun h _ => ?_
  refine congrArg (· * wd (ix2 h f)) ?_
  refine (truncf_apply (ψ := .bf16) _ bitsLt_bf16_f32 (ix2 r h)).trans ?_
  refine (mulf_apply _ _ _).trans ?_
  refine congrArg₂ (· * ·) ?_ (up_apply _ _ r h)
  refine (maximumf_apply _ _ _).trans ?_
  exact congrArg (max · z) (up_apply _ _ r h)

/-- The second stored value at row `r`: the first one's entry at feature 5 plus the row's correction. -/
theorem pay2_apply (xb : Vec Ideal S256x4096 .f32) (wu wg : Vec Ideal S4096x41 .bf16) (wd : Vec Ideal S41x4096 .bf16) (cb : Vec Ideal S256x1 .f32) (r : Fin 256) :
    k0_pay2 (F := Ideal) xb wu wg wd cb (ix2 r 0) = k0_pay1 (F := Ideal) xb wu wg wd (ix2 r 5) + cb (ix2 r 0) := by
  unfold k0_pay2
  simp only [shapeCast_self]
  refine (addf_apply _ _ _).trans ?_
  refine congrArg (· + cb (ix2 r 0)) ?_
  refine extractStridedSlice_apply _ _ slices_S256x4096_o0_5_S256x1 (ix2 r 0) (ix2 r 5) fun a => ?_
  match a with
  | ⟨0, _⟩ => exact (Nat.zero_add _).symm
  | ⟨1, _⟩ => rfl

end Cert.KernelIdeal.Payload

end
-- ==== Proof.KernelValue.lean ====
/-
  The kernel's whole output array, and the program's result after the final reshape.

  Grid point `t` (of 32) works on rows `t·256 … t·256+255` of the [8192, 4096] arrays: the row block of `x` and of
  the correction column move with the point, the three stacked weight arrays are read whole at every point. What the
  point writes back is, by the block lemma and the two payload lemmas, the rows' entries plus the stacked branch's
  contribution, with the rows' corrections added on column 5. These are the restrictions to the point's rows of ONE
  function of the arrays the region finds; the 32 row blocks cover the array, so the array ends holding that
  function. The one host operation after the region reshapes it to [8192, 32, 128].
-/
import proofs.«403129_j46548855554094_3_alg».proof.Proof.KernelBlock
import proofs.«403129_j46548855554094_3_alg».proof.Proof.KernelPayload
import proofs.«403129_j46548855554094_3_alg».proof.Proof.GatedFfn
import Idealize.ShloMosaic.Lib.Pipeline.Value
import Idealize.ShloMosaic.Lib.ValueIdx
import Idealize.ShloMosaic.Lib.StableHlo.Run

set_option maxRecDepth 16384

noncomputable section

namespace Cert.KernelIdeal.Arr

open Idealize.ShloMosaic Idealize.ShloMosaic.TcCoe Idealize.ShloMosaic.Tactic Idealize.ShloMosaic.ValueIdx
open Idealize.ShloMosaic.StableHlo
open Idealize.SL Idealize.SL.Sem
open Cert.KernelIdeal Cert.KernelIdeal.Gen Cert.GatedFfn

variable (m : (ℓ : Loc nD τ sig) → Buf (Elt Ideal) ℓ) (ρ : Dev nD → PrngReg)

/-! ## The arrays the region finds, by their literal types -/

/-- `x` flattened to [8192, 4096]. -/
abbrev xArr (c : Dev nD) : FVec Ideal S8192x4096 .f32 := V m c main_v10
/-- The per-row correction, as a column. -/
abbrev cArr (c : Dev nD) : FVec Ideal S8192x1 .f32 := V m c main_v38
/-- The stacked up, gate and down weights. -/
abbrev uArr (c : Dev nD) : FVec Ideal S4096x41 .bf16 := V m c main_v6
abbrev gArr (c : Dev nD) : FVec Ideal S4096x41 .bf16 := V m c main_v8
abbrev dArr (c : Dev nD) : FVec Ideal S41x4096 .bf16 := V m c main_v9

/-- Row `b`, feature `f` before the correction: the entry plus the stacked branch's contribution. -/
def rowSum (c : Dev nD) (b : Fin 8192) (f : Fin 4096) : EReal :=
  xArr m c (ix2 b f) + delta (fun k => xArr m c (ix2 b k)) (fun h k => uArr m c (ix2 k h)) (fun h k => gArr m c (ix2 k h))
    (fun h => dArr m c (ix2 h f))

/-- Row `b`, feature `f` of the output: `rowSum`, with the row's correction added on column 5. -/
def outAt (c : Dev nD) (b : Fin 8192) (f : Fin 4096) : EReal :=
  if f.val = 5 then rowSum m c b f + cArr m c (ix2 b 0) else rowSum m c b f

/-- The whole output array. -/
def outArr (c : Dev nD) : FVec Ideal S8192x4096 .f32 := fun i => outAt m c (i ⟨0, Nat.zero_lt_two⟩) (i ⟨1, Nat.one_lt_two⟩)

/-- Read at explicit coordinates. -/
theorem outArr_ix2 (c : Dev nD) (b : Fin 8192) (f : Fin 4096) : outArr m c (ix2 b f) = outAt m c b f := rfl

/-! ## Where each window's block sits at a grid point -/

/-- The grid has 32 points. -/
theorem lt32 (t : Fin cfg0.N) : t.val < 32 := lt_of_lt_of_eq t.isLt N_0

/-- The row of the arrays that row `r` of point `t`'s blocks is. -/
def rowOf (t : Fin cfg0.N) (r : Fin 256) : Fin 8192 := ⟨t.val * 256 + r.val, by have := lt32 t; have := r.isLt; omega⟩

/-- The printed index maps, decided over the grid: the row blocks (of `x`, the correction and the output) sit at block
    row `t`, the weight arrays at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Point `t`'s block of `x` is rows `t·256 …` of it. -/
theorem xblk_apply (c : Dev nD) (t : Fin cfg0.N) (r : Fin 256) (k : Fin 4096) :
    iblk m c 0 t (ix2 r k) = xArr m c (ix2 (rowOf t r) k) := by
  obtain ⟨e0, e1, -⟩ := idx_facts t
  show V m c main_v10 (((cfg0.win 0).blk t).view.emb (ix2 r k)) = V m c main_v10 (ix2 (rowOf t r) k)
  refine congrArg (V m c main_v10) (funext fun a => Fin.ext ?_)
  match a with
  | ⟨0, _⟩ => show win0_0.index t (0 : Fin 2) * 256 + 1 * r.val = t.val * 256 + r.val; omega
  | ⟨1, _⟩ => show win0_0.index t (1 : Fin 2) * 4096 + 1 * k.val = k.val; omega

/-- Point `t`'s block of the correction column is the same rows of it. -/
theorem cblk_apply (c : Dev nD) (t : Fin cfg0.N) (r : Fin 256) :
    iblk m c 1 t (ix2 r 0) = cArr m c (ix2 (rowOf t r) 0) := by
  obtain ⟨-, -, e0, e1, -⟩ := idx_facts t
  show V m c main_v38 (((cfg0.win 1).blk t).view.emb (ix2 r 0)) = V m c main_v38 (ix2 (rowOf t r) 0)
  refine congrArg (V m c main_v38) (funext fun a => Fin.ext ?_)
  match a with
  | ⟨0, _⟩ => show win0_1.index t (0 : Fin 2) * 256 + 1 * r.val = t.val * 256 + r.val; omega
  | ⟨1, _⟩ => show win0_1.index t (1 : Fin 2) * 1 + 1 * 0 = 0; omega

/-- The weight windows read their arrays whole at every point. -/
theorem ublk_apply (c : Dev nD) (t : Fin cfg0.N) (k : Fin 4096) (h : Fin 41) :
    iblk m c 2 t (ix2 k h) = uArr m c (ix2 k h) := by
  obtain ⟨-, -, -, -, e0, e1, -⟩ := idx_facts t
  show V m c main_v6 (((cfg0.win 2).blk t).view.emb (ix2 k h)) = V m c main_v6 (ix2 k h)
  refine congrArg (V m c main_v6) (funext fun a => Fin.ext ?_)
  match a with
  | ⟨0, _⟩ => show win0_2.index t (0 : Fin 2) * 4096 + 1 * k.val = k.val; omega
  | ⟨1, _⟩ => show win0_2.index t (1 : Fin 2) * 41 + 1 * h.val = h.val; omega
theorem gblk_apply (c : Dev nD) (t : Fin cfg0.N) (k : Fin 4096) (h : Fin 41) :
    iblk m c 3 t (ix2 k h) = gArr m c (ix2 k h) := by
  obtain ⟨-, -, -, -, -, -, e0, e1, -⟩ := idx_facts t
  show V m c main_v8 (((cfg0.win 3).blk t).view.emb (ix2 k h)) = V m c main_v8 (ix2 k h)
  refine congrArg (V m c main_v8) (funext fun a => Fin.ext ?_)
  match a with
  | ⟨0, _⟩ => show win0_3.index t (0 : Fin 2) * 4096 + 1 * k.val = k.val; omega
  | ⟨1, _⟩ => show win0_3.index t (1 : Fin 2) * 41 + 1 * h.val = h.val; omega
theorem dblk_apply (c : Dev nD) (t : Fin cfg0.N) (h : Fin 41) (f : Fin 4096) :
    iblk m c 4 t (ix2 h f) = dArr m c (ix2 h f) := by
  obtain ⟨-, -, -, -, -, -, -, -, e0, e1, -⟩ := idx_facts t
  show V m c main_v9 (((cfg0.win 4).blk t).view.emb (ix2 h f)) = V m c main_v9 (ix2 h f)
  refine congrArg (V m c main_v9) (funext fun a => Fin.ext ?_)
  match a with
  | ⟨0, _⟩ => show win0_4.index t (0 : Fin 2) * 41 + 1 * h.val = h.val; omega
  | ⟨1, _⟩ => show win0_4.index t (1 : Fin 2) * 4096 + 1 * f.val = f.val; omega

/-! ## What a point writes back -/

/-- The block store's value at row `r`, feature `f` of point `t` is `rowSum` at the array's row. -/
theorem pay1_at (c : Dev nD) (t : Fin cfg0.N) (r : Fin 256) (f : Fin 4096) :
    k0_pay1 (F := Ideal) (iblk m c 0 t) (iblk m c 2 t) (iblk m c 3 t) (iblk m c 4 t) (ix2 r f) = rowSum m c (rowOf t r) f := by
  refine (Payload.pay1_apply (iblk m c 0 t) (iblk m c 2 t) (iblk m c 3 t) (iblk m c 4 t) r f).trans ?_
  unfold rowSum
  simp only [xblk_apply m c t, ublk_apply m c t, gblk_apply m c t, dblk_apply m c t]

/-- The column store's value at row `r`: `rowSum` at feature 5 plus the row's correction. -/
theorem pay2_at (c : Dev nD) (t : Fin cfg0.N) (r : Fin 256) :
    k0_pay2 (F := Ideal) (iblk m c 0 t) (iblk m c 2 t) (iblk m c 3 t) (iblk m c 4 t) (iblk m c 1 t) (ix2 r 0)
      = rowSum m c (rowOf t r) 5 + cArr m c (ix2 (rowOf t r) 0) := by
  refine (Payload.pay2_apply (iblk m c 0 t) (iblk m c 2 t) (iblk m c 3 t) (iblk m c 4 t) (iblk m c 1 t) r).trans ?_
  rw [pay1_at m c t r 5, cblk_apply m c t r]

/-- Where row `r`, feature `f` of point `t`'s output block sits in the array. -/
theorem oblk_emb (t : Fin cfg0.N) (r : Fin 256) (f : Fin 4096) :
    ((cfg0.win 5).blk t).view.emb (ix2 r f) = ix2 (rowOf t r) f := by
  obtain ⟨-, -, -, -, -, -, -, -, -, -, e0, e1⟩ := idx_facts t
  refine funext fun a => Fin.ext ?_
  match a with
  | ⟨0, _⟩ => show win0_5.index t (0 : Fin 2) * 256 + 1 * r.val = t.val * 256 + r.val; omega
  | ⟨1, _⟩ => show win0_5.index t (1 : Fin 2) * 4096 + 1 * f.val = f.val; omega

/-- WHAT POINT `t` WRITES BACK is block `t` of `outArr`. -/
theorem flushed_eq (c : Dev nD) (t : Fin cfg0.N) :
    (dats m 0 c).flushed 5 t = ((cfg0.win 5).blk t).view.read (Elt Ideal) (outArr m c) := by
  show (cfg0.win 5).cut (grid0.coords t) ((dats m 0 c).after 5 t) = _
  rw [after0_5]
  unfold outsAt0
  funext j
  obtain ⟨r, f, rfl⟩ : ∃ (r : Fin 256) (f : Fin 4096), j = ix2 r f := ⟨j 0, j 1, eq_ix2 j⟩
  show out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t) (ix2 r f)
    = outArr m c (((cfg0.win 5).blk t).view.emb (ix2 r f))
  rw [oblk_emb t r f]
  refine (Block.block_apply c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t) r f).trans ?_
  rw [outArr_ix2]
  unfold outAt
  by_cases h5 : f.val = 5
  · rw [if_pos h5, if_pos h5, pay2_at m c t r]
    have ef : (5 : Fin 4096) = f := Fin.ext h5.symm
    rw [ef]
  · rw [if_neg h5, if_neg h5, pay1_at m c t r f]

/-! ## The blocks cover the array -/

/-- An index of the array is in point `t`'s block iff each coordinate is in the block's range on its axis. -/
theorem mem_blk (t : Fin cfg0.N) (i : S8192x4096.Idx) :
    i ∈ ((cfg0.win 5).blk t).view.set ↔ ∀ a : Fin 2, win0_5.index t a * S256x4096.size a ≤ (i a).val ∧ (i a).val < win0_5.index t a * S256x4096.size a + S256x4096.size a := by
  show i ∈ ((View.whole main_v39).slice (win0_5.rect t)).set ↔ _
  rw [View.set_slice_whole, Rect.mem_set_unit]
  exact Iff.rfl

/-- Row `b` is in the block of point `b / 256`. -/
theorem cover (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have hN : (i 0).val / 256 < cfg0.N := by rw [show cfg0.N = 32 from N_0]; omega
  obtain ⟨-, -, -, -, -, -, -, -, -, -, e0, e1⟩ := idx_facts ⟨(i 0).val / 256, hN⟩
  have e0' : win0_5.index ⟨(i 0).val / 256, hN⟩ (0 : Fin 2) = (i 0).val / 256 := e0
  refine ⟨⟨(i 0).val / 256, hN⟩, flush0_5 _, (mem_blk _ i).2 fun a => ?_⟩
  match a with
  | ⟨0, _⟩ =>
    show win0_5.index ⟨(i 0).val / 256, hN⟩ (0 : Fin 2) * 256 ≤ (i 0).val ∧ (i 0).val < win0_5.index ⟨(i 0).val / 256, hN⟩ (0 : Fin 2) * 256 + 256
    omega
  | ⟨1, _⟩ =>
    show win0_5.index ⟨(i 0).val / 256, hN⟩ (1 : Fin 2) * 4096 ≤ (i 1).val ∧ (i 1).val < win0_5.index ⟨(i 0).val / 256, hN⟩ (1 : Fin 2) * 4096 + 4096
    omega

/-- THE ARRAY after the region: `outArr`. -/
theorem final (c : Dev nD) : (dats m 0 c).arrAt 5 cfg0.N = outArr m c :=
  (dats m 0 c).arrAt_eq_of_cover 5 (outArr m c) (fun t _ => flushed_eq m c t) cover

/-! ## The result after the reshape -/

/-- The program's result is the output array reshaped to [8192, 32, 128]. -/
theorem result_eq (c : Dev nD) :
    Pipeline.afterTail₀ cfgs (dats m) 0 (V0 m) [hostOps1] c main_v40
      = shapeCast _ (outArr m c) shapeCasts_S8192x4096_S8192x32x128 := by
  unfold Pipeline.afterTail₀
  show StableHlo.after hostOps1 _ (Proc.devRef .tc main_v40) = _
  after_results
  have e : Pipeline.withArrays (cfgs 0).spec c (V0 m c) (fun w => (dats m 0 c).arrAt w (cfgs 0).N) (Proc.devRef .tc main_v39)
      = outArr m c :=
    (Pipeline.withArrays_arr spec0 launch0.win.arr_inj c _ _ 5).trans (final m c)
  funext i
  show shapeCast S8192x32x128 (Pipeline.withArrays (cfgs 0).spec c (V0 m c) (fun w => (dats m 0 c).arrAt w (cfgs 0).N) (Proc.devRef .tc main_v39))
      shapeCasts_S8192x4096_S8192x32x128 i = _
  rw [e]

/-! ## The kernel's run, read -/

/-- Every weakly fair execution of the program terminates with the result at the reshaped output array and the
    arguments as they were. -/
theorem run : θ_run defs (onTc (τ := τ) (main (F := Ideal))) ⟨m, fun _ => 0, ρ⟩ (fun r => ∀ c : Dev nD,
      r.2.mem ((c.tc : Thread nD τ).loc main_v40) = shapeCast _ (outArr m c) shapeCasts_S8192x4096_S8192x32x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v40 (Pipeline.mem_restRefs_of main_v40 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Arr

end
-- ==== Proof.KernelHost.lean ====
/-
  What four of the arrays the kernel's region reads hold when the region is entered, as terms of the program's arguments.

  Before the region the host forms, from the arguments: the input [8192, 32, 128] reshaped to [8192, 4096]; the two
  branches' up weights, [8, 4096] and [33, 4096], joined along the hidden axis, transposed to [4096, 41] and cast to the
  narrower float width; the gate weights likewise; and the two branches' down weights, [4096, 8] and [4096, 33], each
  transposed and then joined along the hidden axis into [41, 4096] and cast. Each host operation writes one fresh array as
  a function of arrays written before it, so each of these four arrays is the composite of the operations that lead to it.

  The reshape keeps the row-major position: entry (b, f) of the [8192, 4096] array is entry (b, f / 128, f % 128) of the
  input, since `(b * 32 + f / 128) * 128 + f % 128 = b * 4096 + f`.
-/
import proofs.«403129_j46548855554094_3_alg».proof.Proof.Gen.KernelIdeal.Frame
import proofs.«403129_j46548855554094_3_alg».proof.Proof.GatedFfn
import Idealize.ShloMosaic.Lib.StableHlo.Run
import Idealize.ShloMosaic.Lib.Pipeline.Value
import Idealize.ShloMosaic.Lib.ValueIdx

set_option maxRecDepth 16384

noncomputable section

namespace Cert.KernelIdeal.Host

open Idealize.ShloMosaic Idealize.ShloMosaic.TcCoe Idealize.ShloMosaic.Tactic Idealize.ShloMosaic.StableHlo Idealize.ShloMosaic.ValueIdx
open Idealize.SL Idealize.SL.Sem
open Cert.KernelIdeal Cert.KernelIdeal.Gen Cert.GatedFfn

variable {F : FTy → Type} [FloatOps F]
variable (m : (ℓ : Loc nD τ sig) → Buf (Elt F) ℓ)

/-! ## The arrays at the region's entry -/

/-- The input, reshaped from [8192, 32, 128] to [8192, 4096]. -/
theorem V_v10 (c : Dev nD) :
    (V m c main_v10 : S8192x4096.Idx → Elt F .f32) = shapeCast _ (m ((c : Thread nD τ).loc main_arg0)) shapeCasts_S8192x32x128_S8192x4096 := by
  dsimp only [Gen.V, Gen.V0]
  simp only [Gen.hostOps0, Gen.hostOps0_1, Gen.hostOps0_2, List.flatten_cons, List.flatten_nil, List.append_nil, List.cons_append, List.nil_append]
  after_results
  rfl

/-- The stacked up weights: the two branches' joined along the hidden axis, transposed, cast. -/
theorem V_v6 (c : Dev nD) :
    (V m c main_v6 : S4096x41.Idx → Elt F .bf16) = truncf .bf16 (transpose S4096x41 [1, 0] (concatenate S41x4096 0 [⟨S8x4096, m ((c : Thread nD τ).loc main_arg1)⟩, ⟨S33x4096, m ((c : Thread nD τ).loc main_arg4)⟩] concatenates_S8x4096_S33x4096_S41x4096_d0) transposes_S41x4096_S4096x41_1_0) bitsLt_bf16_f32 := by
  dsimp only [Gen.V, Gen.V0]
  simp only [Gen.hostOps0, Gen.hostOps0_1, Gen.hostOps0_2, List.flatten_cons, List.flatten_nil, List.append_nil, List.cons_append, List.nil_append]
  after_results

/-- The stacked gate weights: the same of the two branches' gate weights. -/
theorem V_v8 (c : Dev nD) :
    (V m c main_v8 : S4096x41.Idx → Elt F .bf16) = truncf .bf16 (transpose S4096x41 [1, 0] (concatenate S41x4096 0 [⟨S8x4096, m ((c : Thread nD τ).loc main_arg2)⟩, ⟨S33x4096, m ((c : Thread nD τ).loc main_arg5)⟩] concatenates_S8x4096_S33x4096_S41x4096_d0) transposes_S41x4096_S4096x41_1_0) bitsLt_bf16_f32 := by
  dsimp only [Gen.V, Gen.V0]
  simp only [Gen.hostOps0, Gen.hostOps0_1, Gen.hostOps0_2, List.flatten_cons, List.flatten_nil, List.append_nil, List.cons_append, List.nil_append]
  after_results

/-- The stacked down weights: each branch's transposed, then joined along the hidden axis, cast. -/
theorem V_v9 (c : Dev nD) :
    (V m c main_v9 : S41x4096.Idx → Elt F .bf16) = truncf .bf16 (concatenate S41x4096 0 [⟨S8x4096, transpose S8x4096 [1, 0] (m ((c : Thread nD τ).loc main_arg3)) transposes_S4096x8_S8x4096_1_0⟩, ⟨S33x4096, transpose S33x4096 [1, 0] (m ((c : Thread nD τ).loc main_arg6)) transposes_S4096x33_S33x4096_1_0⟩] concatenates_S8x4096_S33x4096_S41x4096_d0) bitsLt_bf16_f32 := by
  dsimp only [Gen.V, Gen.V0]
  simp only [Gen.hostOps0, Gen.hostOps0_1, Gen.hostOps0_2, List.flatten_cons, List.flatten_nil, List.append_nil, List.cons_append, List.nil_append]
  after_results

/-! ## The reshape at an index -/

/-- Entry (b, f) of the reshaped input is the input's entry at position `f / 128`, channel `f % 128` of row `b`. -/
theorem flat_apply (x : FVec Ideal S8192x32x128 .f32) (b : Fin 8192) (f : Fin 4096) :
    shapeCast _ x shapeCasts_S8192x32x128_S8192x4096 (ix2 b f) = flatRow x b f := by
  unfold flatRow
  refine shapeCast_apply x shapeCasts_S8192x32x128_S8192x4096 (ix2 b f) _ ?_
  rewrite [Shape.rowMajor_val_three, Shape.rowMajor_val_two]
  have hb : b.val < 8192 := b.isLt
  have hf : f.val < 4096 := f.isLt
  show (b.val * 32 + f.val / 128) * 128 + f.val % 128 = b.val * 4096 + f.val
  omega

end Cert.KernelIdeal.Host

end
-- ==== Proof.KernelWeights.lean ====
/-
  The stacked weights the host hands to the kernel, read at an index over the extended reals.

  The two branches have hidden widths 8 and 33. Their up (and gate) weights, [8, 4096] and [33, 4096], are joined along
  the hidden axis into [41, 4096] and then transposed to [4096, 41]; their down weights, [4096, 8] and [4096, 33], are
  each transposed first and then joined along the hidden axis into [41, 4096]. The cast to the narrower float width is
  the identity on the extended reals. A row `h < 41` of a joined array is row `h` of the first piece when `h < 8` and row
  `h - 8` of the second otherwise: as a function of `h : Fin (8 + 33)` that is `Fin.append` of the two pieces' rows.
-/
import proofs.«403129_j46548855554094_3_alg».proof.Proof.Gen.KernelIdeal
import proofs.«403129_j46548855554094_3_alg».proof.Proof.GatedFfn
import Idealize.ShloMosaic.Lib.ValueIdx
import Idealize.ShloMosaic.Lib.Pipeline.Value

noncomputable section

namespace Cert.KernelIdeal.Weights

open Cert.KernelIdeal Cert.KernelIdeal.Gen Cert.GatedFfn Idealize.ShloMosaic Idealize.ShloMosaic.ValueIdx

/-! ## A join of [8, 4096] and [33, 4096] along axis 0, read at a row of either piece -/

/-- Row `i < 8` of the join is row `i` of the first piece. -/
theorem stacked_left {α : Type} (a : S8x4096.Idx → α) (b : S33x4096.Idx → α) (i : Fin 8) (k : Fin 4096) :
    concatenate S41x4096 0 [⟨S8x4096, a⟩, ⟨S33x4096, b⟩] concatenates_S8x4096_S33x4096_S41x4096_d0 (ix2 (Fin.castAdd 33 i) k) = a (ix2 i k) :=
  concatenate_pair_apply_left 0 a b concatenates_S8x4096_S33x4096_S41x4096_d0 (ix2 (Fin.castAdd 33 i) k) rfl (ix2 i k)
    (fun c => match c with
      | ⟨0, _⟩ => rfl
      | ⟨1, _⟩ => rfl)

/-- Row `8 + j` of the join, `j < 33`, is row `j` of the second piece. -/
theorem stacked_right {α : Type} (a : S8x4096.Idx → α) (b : S33x4096.Idx → α) (j : Fin 33) (k : Fin 4096) :
    concatenate S41x4096 0 [⟨S8x4096, a⟩, ⟨S33x4096, b⟩] concatenates_S8x4096_S33x4096_S41x4096_d0 (ix2 (Fin.natAdd 8 j) k) = b (ix2 j k) :=
  concatenate_pair_apply_right 0 a b concatenates_S8x4096_S33x4096_S41x4096_d0 (ix2 (Fin.natAdd 8 j) k) rfl rfl (ix2 j k)
    (fun c hc => match c, hc with
      | ⟨0, _⟩, hc => absurd rfl hc
      | ⟨1, _⟩, _ => rfl)
    (Nat.add_comm j.val 8)

/-! ## The two stacked operands at an index -/

/-- The joined up (or gate) weights, transposed: entry (k, h) is branch one's `(h, k)` for `h < 8`, branch two's
    `(h - 8, k)` otherwise. -/
theorem stackedT_apply (a : FVec Ideal S8x4096 .f32) (b : FVec Ideal S33x4096 .f32) (k : Fin 4096) (h : Fin 41) :
    (truncf .bf16 (transpose S4096x41 [1, 0] (concatenate S41x4096 0 [⟨S8x4096, a⟩, ⟨S33x4096, b⟩] concatenates_S8x4096_S33x4096_S41x4096_d0) transposes_S41x4096_S4096x41_1_0) bitsLt_bf16_f32 : FVec Ideal S4096x41 .bf16) (ix2 k h)
      = Fin.append (c2 a) (c2 b) h k := by
  refine (truncf_apply (ψ := .bf16) _ bitsLt_bf16_f32 (ix2 k h)).trans ?_
  refine (transpose_apply [1, 0] _ transposes_S41x4096_S4096x41_1_0 (ix2 k h) (ix2 h k) (fun c => match c with
    | ⟨0, _⟩ => rfl
    | ⟨1, _⟩ => rfl)).trans ?_
  refine Fin.addCases (m := 8) (n := 33)
    (motive := fun h => concatenate S41x4096 0 [⟨S8x4096, a⟩, ⟨S33x4096, b⟩] concatenates_S8x4096_S33x4096_S41x4096_d0 (ix2 h k) = Fin.append (c2 a) (c2 b) h k)
    (fun i => ?_) (fun j => ?_) h
  · exact (stacked_left a b i k).trans (congrFun (Fin.append_left (c2 a) (c2 b) i).symm k)
  · exact (stacked_right a b j k).trans (congrFun (Fin.append_right (c2 a) (c2 b) j).symm k)

/-- The transposed down weights, joined: entry (h, f) is branch one's `(f, h)` for `h < 8`, branch two's `(f, h - 8)`
    otherwise. -/
theorem stackedDown_apply (a : FVec Ideal S4096x8 .f32) (b : FVec Ideal S4096x33 .f32) (h : Fin 41) (f : Fin 4096) :
    (truncf .bf16 (concatenate S41x4096 0 [⟨S8x4096, transpose S8x4096 [1, 0] a transposes_S4096x8_S8x4096_1_0⟩, ⟨S33x4096, transpose S33x4096 [1, 0] b transposes_S4096x33_S33x4096_1_0⟩] concatenates_S8x4096_S33x4096_S41x4096_d0) bitsLt_bf16_f32 : FVec Ideal S41x4096 .bf16) (ix2 h f)
      = Fin.append (fun h' : Fin 8 => c2 a f h') (fun h' : Fin 33 => c2 b f h') h := by
  refine (truncf_apply (ψ := .bf16) _ bitsLt_bf16_f32 (ix2 h f)).trans ?_
  refine Fin.addCases (m := 8) (n := 33)
    (motive := fun h => concatenate S41x4096 0 [⟨S8x4096, transpose S8x4096 [1, 0] a transposes_S4096x8_S8x4096_1_0⟩, ⟨S33x4096, transpose S33x4096 [1, 0] b transposes_S4096x33_S33x4096_1_0⟩] concatenates_S8x4096_S33x4096_S41x4096_d0 (ix2 h f)
      = Fin.append (fun h' : Fin 8 => c2 a f h') (fun h' : Fin 33 => c2 b f h') h)
    (fun i => ?_) (fun j => ?_) h
  · refine (stacked_left _ _ i f).trans ?_
    refine (transpose_apply [1, 0] a transposes_S4096x8_S8x4096_1_0 (ix2 i f) (ix2 f i) (fun c => match c with
      | ⟨0, _⟩ => rfl
      | ⟨1, _⟩ => rfl)).trans ?_
    exact (Fin.append_left (fun h' : Fin 8 => c2 a f h') (fun h' : Fin 33 => c2 b f h') i).symm
  · refine (stacked_right _ _ j f).trans ?_
    refine (transpose_apply [1, 0] b transposes_S4096x33_S33x4096_1_0 (ix2 j f) (ix2 f j) (fun c => match c with
      | ⟨0, _⟩ => rfl
      | ⟨1, _⟩ => rfl)).trans ?_
    exact (Fin.append_right (fun h' : Fin 8 => c2 a f h') (fun h' : Fin 33 => c2 b f h') j).symm

end Cert.KernelIdeal.Weights

end
-- ==== Proof.KernelCorr.lean ====
import proofs.«403129_j46548855554094_3_alg».proof.Proof.Gen.KernelIdeal.Frame
import proofs.«403129_j46548855554094_3_alg».proof.Proof.Gen.ReferenceIdeal.Read
import Idealize.ShloMosaic.Lib.StableHlo.Run

/-!
  The per-row correction the kernel's region is handed.

  Before its region the kernel's program computes, on the host, a per-row correction: the row's opcode channel
  times a softmax-style reciprocal of the row's 32 scores. It does so by the same chain of operations, over the
  same five literal words and in the same order, as the reference does. So the array the region finds in its second
  argument is the reference's correction of the same two program arguments, reshaped to a column.

  The proof names the stages from the inside out: each of the kernel's operations, applied to the reference's
  names for the earlier stages, is the reference's name for this stage, by unfolding that one definition. Rewriting
  the kernel's composed term with these equations, innermost first, leaves the reference's last stage under the
  final reshape.
-/

set_option maxRecDepth 16384

noncomputable section

namespace Cert.KernelIdeal.Corr

open Idealize.ShloMosaic Idealize.ShloMosaic.TcCoe Idealize.ShloMosaic.Tactic Idealize.ShloMosaic.StableHlo
open Idealize.SL Idealize.SL.Sem
open Cert.KernelIdeal Cert.KernelIdeal.Gen

variable {F : FTy → Type} [FloatOps F]

open Cert.ReferenceIdeal.Read

/-! ## One operation at a time

Each lemma: one of the kernel's host operations, applied to the reference's names for the earlier stages, is the
reference's name for this stage. The two programs' shape names denote the same shapes and their shape facts are
proofs of the same propositions, so each equation holds by unfolding the one definition on its right. -/

/-- The opcode channel: position 0, channel 67 of every row. -/
theorem k18 (x0 : (⟨S8192x32x128, .f32⟩ : BufTy).Contents (Elt F)) :
    extractStridedSlice S8192x1x1 ![0, 0, 67] x0 slices_S8192x32x128_S8192x1x1_0_0_67 = val_main_v18 (F := F) x0 := rfl

theorem k19 (x0 : (⟨S8192x32x128, .f32⟩ : BufTy).Contents (Elt F)) :
    (fun i => shapeCast main_v12.ty.shape (val_main_v18 (F := F) x0) shapeCasts_S8192x1x1_S8192 i) = val_main_v19 (F := F) x0 := rfl

/-- The 32 scores' channel: channel 1 of every position. -/
theorem k20 (x0 : (⟨S8192x32x128, .f32⟩ : BufTy).Contents (Elt F)) :
    extractStridedSlice S8192x32x1 ![0, 0, 1] x0 slices_S8192x32x128_S8192x32x1_0_0_1 = val_main_v20 (F := F) x0 := rfl

theorem k21 (x0 : (⟨S8192x32x128, .f32⟩ : BufTy).Contents (Elt F)) :
    (fun i => shapeCast main_v14.ty.shape (val_main_v20 (F := F) x0) shapeCasts_S8192x32x1_S8192x32 i) = val_main_v21 (F := F) x0 := rfl

theorem k22 (x7 : (⟨S32, .f32⟩ : BufTy).Contents (Elt F)) :
    broadcastInDim S1x32 ![1] bcast_S32_S1x32_1 x7 = val_main_v22 (F := F) x7 := rfl

theorem k23 (x7 : (⟨S32, .f32⟩ : BufTy).Contents (Elt F)) :
    broadcastInDim S8192x32 ![0, 1] bcast_S1x32_S8192x32_0_1 (val_main_v22 (F := F) x7) = val_main_v23 (F := F) x7 := rfl

theorem k24 (x0 : (⟨S8192x32x128, .f32⟩ : BufTy).Contents (Elt F)) (x7 : (⟨S32, .f32⟩ : BufTy).Contents (Elt F)) :
    mulf (val_main_v21 (F := F) x0) (val_main_v23 (F := F) x7) = val_main_v24 (F := F) x0 x7 := rfl

/-- The word one half, broadcast. Both programs make it twice; both copies are this one term. -/
theorem k25 :
    broadcastInDim S8192x32 ![] bcast_S_S8192x32 (constant S_ .f32 0x3F000000#32) = val_main_v25 (F := F) := rfl

theorem k26 (x0 : (⟨S8192x32x128, .f32⟩ : BufTy).Contents (Elt F)) (x7 : (⟨S32, .f32⟩ : BufTy).Contents (Elt F)) :
    maximumf (val_main_v24 (F := F) x0 x7) (val_main_v25 (F := F)) = val_main_v26 (F := F) x0 x7 := rfl

theorem k28 (x0 : (⟨S8192x32x128, .f32⟩ : BufTy).Contents (Elt F)) :
    cmpf .ogt (val_main_v21 (F := F) x0) (val_main_v25 (F := F)) = val_main_v28 (F := F) x0 := rfl

theorem k29 (x0 : (⟨S8192x32x128, .f32⟩ : BufTy).Contents (Elt F)) (x7 : (⟨S32, .f32⟩ : BufTy).Contents (Elt F)) :
    Host.log (val_main_v26 (F := F) x0 x7) = val_main_v29 (F := F) x0 x7 := rfl

/-- The word minus sixty, broadcast: before the call in one program, inside it in the other. -/
theorem kc2 :
    broadcastInDim S8192x32 ![] bcast_S_S8192x32 (constant S_ .f32 0xC2700000#32) = val_main_call2_v0 (F := F) := rfl

/-- The select call: its operands and its result pass through the call's typed references unchanged. -/
theorem k30 (x0 : (⟨S8192x32x128, .f32⟩ : BufTy).Contents (Elt F)) (x7 : (⟨S32, .f32⟩ : BufTy).Contents (Elt F)) :
    (TRef.of (T := ⟨S8192x32, .f32⟩) main_v24).toBuf
        (select ((TRef.of (T := ⟨S8192x32, .i1⟩) main_v21).ofBuf (val_main_v28 (F := F) x0))
          ((TRef.of (T := ⟨S8192x32, .f32⟩) main_v22).ofBuf (val_main_v29 (F := F) x0 x7))
          ((TRef.of (T := ⟨S8192x32, .f32⟩) main_v23).ofBuf (val_main_call2_v0 (F := F))))
      = val_main_v30 (F := F) x0 x7 := rfl

theorem k31 (x0 : (⟨S8192x32x128, .f32⟩ : BufTy).Contents (Elt F)) (x7 : (⟨S32, .f32⟩ : BufTy).Contents (Elt F)) :
    Host.reduce FloatOps.maximumf (val_main_v30 (F := F) x0 x7) (constant S_ .f32 0xFF800000#32) reducesTo_S8192x32_S8192_d1 h_S_
      = val_main_v31 (F := F) x0 x7 := rfl

theorem k32 (x0 : (⟨S8192x32x128, .f32⟩ : BufTy).Contents (Elt F)) (x7 : (⟨S32, .f32⟩ : BufTy).Contents (Elt F)) :
    broadcastInDim S8192x1 ![0] bcast_S8192_S8192x1_0 (val_main_v31 (F := F) x0 x7) = val_main_v32 (F := F) x0 x7 := rfl

theorem k33 (x0 : (⟨S8192x32x128, .f32⟩ : BufTy).Contents (Elt F)) (x7 : (⟨S32, .f32⟩ : BufTy).Contents (Elt F)) :
    broadcastInDim S8192x32 ![0, 1] bcast_S8192x1_S8192x32_0_1 (val_main_v32 (F := F) x0 x7) = val_main_v33 (F := F) x0 x7 := rfl

theorem k34 (x0 : (⟨S8192x32x128, .f32⟩ : BufTy).Contents (Elt F)) (x7 : (⟨S32, .f32⟩ : BufTy).Contents (Elt F)) :
    subf (val_main_v30 (F := F) x0 x7) (val_main_v33 (F := F) x0 x7) = val_main_v34 (F := F) x0 x7 := rfl

theorem k35 (x0 : (⟨S8192x32x128, .f32⟩ : BufTy).Contents (Elt F)) (x7 : (⟨S32, .f32⟩ : BufTy).Contents (Elt F)) :
    Host.exp (val_main_v34 (F := F) x0 x7) = val_main_v35 (F := F) x0 x7 := rfl

theorem k36 (x0 : (⟨S8192x32x128, .f32⟩ : BufTy).Contents (Elt F)) (x7 : (⟨S32, .f32⟩ : BufTy).Contents (Elt F)) :
    Host.reduceAdd (val_main_v35 (F := F) x0 x7) (constant S_ .f32 0x00000000#32) reducesTo_S8192x32_S8192_d1 h_S_
      = val_main_v36 (F := F) x0 x7 := rfl

theorem k37 (x0 : (⟨S8192x32x128, .f32⟩ : BufTy).Contents (Elt F)) (x7 : (⟨S32, .f32⟩ : BufTy).Contents (Elt F)) :
    (fun i => shapeCast main_v31.ty.shape (val_main_v32 (F := F) x0 x7) shapeCasts_S8192x1_S8192 i) = val_main_v37 (F := F) x0 x7 := rfl

theorem k38 (x0 : (⟨S8192x32x128, .f32⟩ : BufTy).Contents (Elt F)) (x7 : (⟨S32, .f32⟩ : BufTy).Contents (Elt F)) :
    Host.negf (val_main_v37 (F := F) x0 x7) = val_main_v38 (F := F) x0 x7 := rfl

theorem k39 (x0 : (⟨S8192x32x128, .f32⟩ : BufTy).Contents (Elt F)) (x7 : (⟨S32, .f32⟩ : BufTy).Contents (Elt F)) :
    Host.exp (val_main_v38 (F := F) x0 x7) = val_main_v39 (F := F) x0 x7 := rfl

theorem k40 :
    broadcastInDim S8192 ![] bcast_S_S8192 (constant S_ .f32 0x0DA24260#32) = val_main_v40 (F := F) := rfl

theorem k41 (x0 : (⟨S8192x32x128, .f32⟩ : BufTy).Contents (Elt F)) (x7 : (⟨S32, .f32⟩ : BufTy).Contents (Elt F)) :
    maximumf (val_main_v36 (F := F) x0 x7) (val_main_v40 (F := F)) = val_main_v41 (F := F) x0 x7 := rfl

theorem k42 (x0 : (⟨S8192x32x128, .f32⟩ : BufTy).Contents (Elt F)) (x7 : (⟨S32, .f32⟩ : BufTy).Contents (Elt F)) :
    Host.divf (val_main_v39 (F := F) x0 x7) (val_main_v41 (F := F) x0 x7) = val_main_v42 (F := F) x0 x7 := rfl

/-- The correction: the opcode channel times the reciprocal. -/
theorem k45 (x0 : (⟨S8192x32x128, .f32⟩ : BufTy).Contents (Elt F)) (x7 : (⟨S32, .f32⟩ : BufTy).Contents (Elt F)) :
    mulf (val_main_v19 (F := F) x0) (val_main_v42 (F := F) x0 x7) = val_main_v45 (F := F) x0 x7 := rfl

/-! ## The region's second argument -/

variable (m : (ℓ : Loc nD τ sig) → Buf (Elt F) ℓ)

/-- What the region finds in its second argument: the reference's correction of the same two arguments, as a column.
    The host operations' results are unfolded in one pass that visits each shared intermediate once; the stages are
    then named innermost first; what is left is the final reshape, read at its literal shape. -/
theorem V_v38 (c : Dev nD) :
    (V m c main_v38 : S8192x1.Idx → Elt F .f32) = shapeCast _ (Cert.ReferenceIdeal.Read.val_main_v45 (F := F) (m ((c : Thread nD τ).loc main_arg0)) (m ((c : Thread nD τ).loc main_arg7))) shapeCasts_S8192_S8192x1 := by
  dsimp only [Gen.V, Gen.V0]
  simp only [Gen.hostOps0, Gen.hostOps0_1, Gen.hostOps0_2, List.flatten_cons, List.flatten_nil, List.append_nil, List.cons_append, List.nil_append]
  after_results_simp
  rw [k18, k19, k20, k21, k22, k23, k24, k25, k26, k28, k29, kc2, k30, k31, k32, k33, k34, k35, k36, k37, k38, k39, k40, k41, k42,
    k45]
  rfl

end Cert.KernelIdeal.Corr

end
-- ==== Proof.KernelResult.lean ====
/-
  The kernel's result is the shared target.

  The arrays the region finds are the host's re-arrangements of the program's arguments: `x` flattened to
  [8192, 4096]; the two branches' up, gate and down weights stacked to one branch of width 41 = 8 + 33; the
  per-row correction as a column. Read at an index the stacked weights are the two branches' weights appended, so
  the stacked branch's contribution splits into the two branches' contributions (the hidden sum splits at 8: only
  associativity and commutativity of addition on the extended reals), and the output array at row `b`, flat
  feature `f` is the target. The final reshape sends position `p`, channel `q` to flat feature `p · 128 + q`.
-/
import proofs.«403129_j46548855554094_3_alg».proof.Proof.KernelValue
import proofs.«403129_j46548855554094_3_alg».proof.Proof.KernelHost
import proofs.«403129_j46548855554094_3_alg».proof.Proof.KernelWeights
import proofs.«403129_j46548855554094_3_alg».proof.Proof.KernelCorr
import proofs.«403129_j46548855554094_3_alg».proof.Proof.GatedFfn
import Idealize.ShloMosaic.Lib.Pipeline.Value
import Idealize.ShloMosaic.Lib.ValueIdx

set_option maxRecDepth 16384

noncomputable section

namespace Cert.KernelIdeal.Result

open Idealize.ShloMosaic Idealize.ShloMosaic.TcCoe Idealize.ShloMosaic.ValueIdx
open Idealize.SL Idealize.SL.Sem
open Cert.KernelIdeal Cert.KernelIdeal.Gen Cert.KernelIdeal.Arr Cert.GatedFfn

variable (m : (ℓ : Loc nD τ sig) → Buf (Elt Ideal) ℓ)

/-! ## The program's arguments, by their literal types -/

abbrev a0 (c : Dev nD) : FVec Ideal S8192x32x128 .f32 := m ((c : Thread nD τ).loc main_arg0)
abbrev a1 (c : Dev nD) : FVec Ideal S8x4096 .f32 := m ((c : Thread nD τ).loc main_arg1)
abbrev a2 (c : Dev nD) : FVec Ideal S8x4096 .f32 := m ((c : Thread nD τ).loc main_arg2)
abbrev a3 (c : Dev nD) : FVec Ideal S4096x8 .f32 := m ((c : Thread nD τ).loc main_arg3)
abbrev a4 (c : Dev nD) : FVec Ideal S33x4096 .f32 := m ((c : Thread nD τ).loc main_arg4)
abbrev a5 (c : Dev nD) : FVec Ideal S33x4096 .f32 := m ((c : Thread nD τ).loc main_arg5)
abbrev a6 (c : Dev nD) : FVec Ideal S4096x33 .f32 := m ((c : Thread nD τ).loc main_arg6)
abbrev a7 (c : Dev nD) : FVec Ideal S32 .f32 := m ((c : Thread nD τ).loc main_arg7)

/-- The per-row correction: the reference's own stage of the same two arguments, unopened. -/
def corr (c : Dev nD) (b : Fin 8192) : EReal :=
  Cert.ReferenceIdeal.Read.val_main_v45 (F := Ideal) (a0 m c) (a7 m c) (ix1 b)

/-! ## The arrays the region finds, at an index -/

theorem xArr_apply (c : Dev nD) (b : Fin 8192) (k : Fin 4096) : xArr m c (ix2 b k) = flatRow (a0 m c) b k :=
  (congrFun (Host.V_v10 m c) (ix2 b k)).trans (Host.flat_apply (a0 m c) b k)

theorem uArr_apply (c : Dev nD) (k : Fin 4096) (h : Fin 41) :
    uArr m c (ix2 k h) = Fin.append (c2 (a1 m c)) (c2 (a4 m c)) h k :=
  (congrFun (Host.V_v6 m c) (ix2 k h)).trans (Weights.stackedT_apply (a1 m c) (a4 m c) k h)

theorem gArr_apply (c : Dev nD) (k : Fin 4096) (h : Fin 41) :
    gArr m c (ix2 k h) = Fin.append (c2 (a2 m c)) (c2 (a5 m c)) h k :=
  (congrFun (Host.V_v8 m c) (ix2 k h)).trans (Weights.stackedT_apply (a2 m c) (a5 m c) k h)

theorem dArr_apply (c : Dev nD) (h : Fin 41) (f : Fin 4096) :
    dArr m c (ix2 h f) = Fin.append (fun h' : Fin 8 => c2 (a3 m c) f h') (fun h' : Fin 33 => c2 (a6 m c) f h') h :=
  (congrFun (Host.V_v9 m c) (ix2 h f)).trans (Weights.stackedDown_apply (a3 m c) (a6 m c) h f)

/-- The correction column at row `b` is the correction of row `b`. -/
theorem cArr_apply (c : Dev nD) (b : Fin 8192) : cArr m c (ix2 b 0) = corr m c b :=
  (congrFun (Corr.V_v38 m c) (ix2 b 0)).trans
    (shapeCast_apply _ shapeCasts_S8192_S8192x1 (ix2 b (0 : Fin 1)) (ix1 b) (by
      rw [Shape.rowMajor_val_one, Shape.rowMajor_val_two]
      show b.val = b.val * 1 + 0
      omega))

/-! ## The output array is the target -/

/-- Before the correction: the row's entry plus the two branches' contributions. -/
theorem rowSum_eq (c : Dev nD) (b : Fin 8192) (f : Fin 4096) :
    rowSum m c b f = base (flatRow (a0 m c)) (c2 (a1 m c)) (c2 (a2 m c)) (c2 (a3 m c)) (c2 (a4 m c)) (c2 (a5 m c)) (c2 (a6 m c)) b f := by
  have hx : (fun k : Fin 4096 => xArr m c (ix2 b k)) = flatRow (a0 m c) b := funext fun k => xArr_apply m c b k
  have hu : (fun (h : Fin 41) (k : Fin 4096) => uArr m c (ix2 k h)) = Fin.append (c2 (a1 m c)) (c2 (a4 m c)) :=
    funext fun h => funext fun k => uArr_apply m c k h
  have hg : (fun (h : Fin 41) (k : Fin 4096) => gArr m c (ix2 k h)) = Fin.append (c2 (a2 m c)) (c2 (a5 m c)) :=
    funext fun h => funext fun k => gArr_apply m c k h
  have hd : (fun h : Fin 41 => dArr m c (ix2 h f))
      = Fin.append (fun h' : Fin 8 => c2 (a3 m c) f h') (fun h' : Fin 33 => c2 (a6 m c) f h') :=
    funext fun h => dArr_apply m c h f
  unfold rowSum base
  rw [hx, hu, hg, hd, xArr_apply]
  exact congrArg (flatRow (a0 m c) b f + ·) (delta_append _ _ _ _ _ _ _)

/-- The output array at row `b`, flat feature `f`. -/
theorem outArr_apply (c : Dev nD) (b : Fin 8192) (f : Fin 4096) :
    outArr m c (ix2 b f)
      = target (flatRow (a0 m c)) (c2 (a1 m c)) (c2 (a2 m c)) (c2 (a3 m c)) (c2 (a4 m c)) (c2 (a5 m c)) (c2 (a6 m c)) (corr m c) b f := by
  rw [outArr_ix2]
  unfold outAt target
  rw [rowSum_eq, cArr_apply]

/-- The program's result at row `b`, position `p`, channel `q`. -/
theorem result_apply (c : Dev nD) (b : Fin 8192) (p : Fin 32) (q : Fin 128) :
    shapeCast S8192x32x128 (outArr m c) shapeCasts_S8192x4096_S8192x32x128 (ix3 b p q)
      = target (flatRow (a0 m c)) (c2 (a1 m c)) (c2 (a2 m c)) (c2 (a3 m c)) (c2 (a4 m c)) (c2 (a5 m c)) (c2 (a6 m c)) (corr m c) b
          ⟨p.val * 128 + q.val, by have := p.isLt; have := q.isLt; omega⟩ := by
  refine (shapeCast_apply (outArr m c) shapeCasts_S8192x4096_S8192x32x128 (ix3 b p q)
    (ix2 b ⟨p.val * 128 + q.val, by have := p.isLt; have := q.isLt; omega⟩) (by
      rw [Shape.rowMajor_val_two, Shape.rowMajor_val_three]
      show b.val * 4096 + (p.val * 128 + q.val) = (b.val * 32 + p.val) * 128 + q.val
      omega)).trans ?_
  exact outArr_apply m c b _

end Cert.KernelIdeal.Result

end
-- ==== Proof.LibScatterRead.lean ====
/-
  Reading a host scatter at an index.

  A host scatter folds its update elements, in row-major order, into the operand: update element `j` lands on
  the operand element its result index names and replaces it by the body `f` of what is there and the update.
  When every update element has a result index inside the operand and distinct update elements land on distinct
  operand elements, the order of the fold does not matter and the result has a closed form, element by element:
  the element update `j` lands on holds `f` of the operand's element and update `j`; an element no update
  lands on keeps the operand's.
-/
import Idealize.ShloMosaic.PureOps.ShapeOps

namespace Idealize.ShloMosaic.ScatterRead

open Idealize.ShloMosaic

variable {α : Type} {s si u : Shape} {w : Nat}

/-- One step of the fold when update element number `n` lands on the operand element `g n`. -/
def step (f : α → α → α) (upd : u.Idx → α) (g : u.Idx → s.Idx) (r : s.Idx → α) (n : Fin u.numel) : s.Idx → α :=
  fun i' => if i' = g (u.rowMajor.symm n) then f (r (g (u.rowMajor.symm n))) (upd (u.rowMajor.symm n)) else r i'

/-- Folding steps whose landing places all differ from `i` leaves element `i` alone. -/
theorem foldl_step_miss (f : α → α → α) (upd : u.Idx → α) (g : u.Idx → s.Idx) (i : s.Idx) :
    ∀ (l : List (Fin u.numel)) (x : s.Idx → α), (∀ n ∈ l, g (u.rowMajor.symm n) ≠ i) →
      l.foldl (step f upd g) x i = x i
  | [], _, _ => rfl
  | a :: l, x, h => by
    rw [List.foldl_cons, foldl_step_miss f upd g i l _ (fun n hn => h n (List.mem_cons_of_mem a hn))]
    have ha : i ≠ g (u.rowMajor.symm a) := fun e => h a List.mem_cons_self e.symm
    simp only [step, if_neg ha]

/-- Folding steps with pairwise distinct landing places: the element step `n` lands on holds `f` of the
    operand's element and update `n`. -/
theorem foldl_step_hit (f : α → α → α) (upd : u.Idx → α) (g : u.Idx → s.Idx) (hinj : Function.Injective g) :
    ∀ (l : List (Fin u.numel)) (x : s.Idx → α), l.Nodup → ∀ n ∈ l,
      l.foldl (step f upd g) x (g (u.rowMajor.symm n))
        = f (x (g (u.rowMajor.symm n))) (upd (u.rowMajor.symm n))
  | [], _, _, n, hn => absurd hn List.not_mem_nil
  | a :: l, x, hnd, n, hn => by
    rw [List.foldl_cons]
    have hne : ∀ n' ∈ l, n' ≠ a := fun n' hn' e => (List.nodup_cons.1 hnd).1 (e ▸ hn')
    have hsep : ∀ n' : Fin u.numel, n' ≠ a → g (u.rowMajor.symm n') ≠ g (u.rowMajor.symm a) :=
      fun n' h e => h (u.rowMajor.symm.injective (hinj e))
    rcases List.mem_cons.1 hn with rfl | hn
    · rw [foldl_step_miss f upd g _ l _ (fun n' hn' => hsep n' (hne n' hn'))]
      simp only [step, if_pos]
    · rw [foldl_step_hit f upd g hinj l _ (List.nodup_cons.1 hnd).2 n hn]
      simp only [step, if_neg (hsep n (hne n hn))]

/-- The scatter's fold is the fold of `step` when every update element's result index is `g` of it. -/
theorem scatter_eq_foldl_step (d : ScatterDims s si u) (f : α → α → α) (x : s.Idx → α) (idx : IVec si w)
    (upd : u.Idx → α) (g : u.Idx → s.Idx) (hg : ∀ j, d.resultIdx? j idx = some (g j)) :
    Host.scatter d f x idx upd = (List.finRange u.numel).foldl (step f upd g) x := by
  unfold Host.scatter
  congr 1
  funext r n
  simp only [hg]
  rfl

/-- The element update `j` lands on: `f` of the operand's element there and the update. -/
theorem scatter_apply_hit (d : ScatterDims s si u) (f : α → α → α) (x : s.Idx → α) (idx : IVec si w)
    (upd : u.Idx → α) (g : u.Idx → s.Idx) (hg : ∀ j, d.resultIdx? j idx = some (g j))
    (hinj : Function.Injective g) (j : u.Idx) :
    Host.scatter d f x idx upd (g j) = f (x (g j)) (upd j) := by
  rw [scatter_eq_foldl_step d f x idx upd g hg]
  have := foldl_step_hit f upd g hinj (List.finRange u.numel) x (List.nodup_finRange _) (u.rowMajor j)
    (List.mem_finRange _)
  simpa only [Equiv.symm_apply_apply] using this

/-- An element no update lands on keeps the operand's. -/
theorem scatter_apply_miss (d : ScatterDims s si u) (f : α → α → α) (x : s.Idx → α) (idx : IVec si w)
    (upd : u.Idx → α) (g : u.Idx → s.Idx) (hg : ∀ j, d.resultIdx? j idx = some (g j))
    (i : s.Idx) (hi : ∀ j, g j ≠ i) :
    Host.scatter d f x idx upd i = x i := by
  rw [scatter_eq_foldl_step d f x idx upd g hg]
  exact foldl_step_miss f upd g i _ x (fun n _ => hi _)

end Idealize.ShloMosaic.ScatterRead
-- ==== Proof.RefValue.lean ====
import proofs.«403129_j46548855554094_3_alg».proof.Proof.Gen.ReferenceIdeal.Run
import proofs.«403129_j46548855554094_3_alg».proof.Proof.Gen.ReferenceIdeal.Read
import proofs.«403129_j46548855554094_3_alg».proof.Proof.GatedFfn
import proofs.«403129_j46548855554094_3_alg».proof.Proof.LibScatterRead
import Idealize.ShloMosaic.Lib.Pipeline.Value
import Idealize.ShloMosaic.Lib.ValueIdx
import Idealize.ShloMosaic.PureOps.Ideal.Laws

/-!
  The reference's result, read at an index.

  The reference flattens each row of the input to 4096 features, runs two gated feed-forward branches (hidden
  widths 8 and 33) on it, adds their sum back onto the row, and finally adds a per-row correction at position 0,
  channel 5 of each row with a scatter.

  Read at row `b`, flat feature `f`: a product of matrices is a finite sum of products, a transposition swaps the two
  coordinates, the rectifier is the maximum with what the zero word denotes; so each branch's value is the sum over
  its hidden units of the unit times its down weight, which is `Cert.GatedFfn.delta`. The reshape back to
  [8192, 32, 128] sends position `p`, channel `q` to flat feature `p * 128 + q`.

  The scatter has one index vector, the words 0 and 5, and one update per row: update `j` lands on row `j`,
  position 0, channel 5. Distinct updates land on distinct elements, so the element at (b, 0, 5) holds what was
  there plus update `b`, and every other element is unchanged. The correction itself stays an unopened term.
-/

noncomputable section

namespace Cert.ReferenceIdeal.RefValue

open Cert.ReferenceIdeal Cert.ReferenceIdeal.Read Cert.GatedFfn Idealize.ShloMosaic Idealize.ShloMosaic.ValueIdx

/-! ## The two branches at a flat index -/

/-- The flattened row: element `(b, k)` of the reshaped input is the input at position `k / 128`, channel `k % 128`. -/
theorem v0_at (x0 : FVec Ideal S8192x32x128 .f32) (b : Fin 8192) (k : Fin 4096) :
    val_main_v0 (F := Ideal) x0 (ix2 b k) = flatRow x0 b k := by
  rw [val_main_v0_apply]
  unfold flatRow
  congr 1
  funext a
  have hb := b.isLt
  have hk := k.isLt
  match a with
  | ⟨0, _⟩ => exact Fin.ext (by show (b.val * 4096 + k.val) / 4096 = b.val; omega)
  | ⟨1, _⟩ => exact Fin.ext (by show (b.val * 4096 + k.val) / 128 % 32 = k.val / 128; omega)
  | ⟨2, _⟩ => exact Fin.ext (by show (b.val * 4096 + k.val) % 128 = k.val % 128; omega)

theorem v1_at (x1 : FVec Ideal S8x4096 .f32) (k : Fin 4096) (h : Fin 8) :
    val_main_v1 (F := Ideal) x1 (ix2 k h) = c2 x1 h k := by
  rw [val_main_v1_apply]
  congr 1
  funext a
  match a with
  | ⟨0, _⟩ => rfl
  | ⟨1, _⟩ => rfl

/-- The up-projection of row `b` onto hidden unit `h`. -/
theorem v2_at (x0 : FVec Ideal S8192x32x128 .f32) (x1 : FVec Ideal S8x4096 .f32) (b : Fin 8192) (h : Fin 8) :
    val_main_v2 (F := Ideal) x0 x1 (ix2 b h) = ∑ k : Fin 4096, flatRow x0 b k * c2 x1 h k := by
  rw [val_main_v2_apply]
  refine Finset.sum_congr rfl fun k _ => ?_
  have el : lidx_main_v2 (ix2 b h) k = ix2 b k := funext fun a => by
    match a with
    | ⟨0, _⟩ => rfl
    | ⟨1, _⟩ => rfl
  have er : ridx_main_v2 (ix2 b h) k = ix2 k h := funext fun a => by
    match a with
    | ⟨0, _⟩ => rfl
    | ⟨1, _⟩ => rfl
  rw [el, er, v0_at, v1_at]

/-- The rectified up-projection: the maximum with what the zero word denotes. -/
theorem v3_at (x0 : FVec Ideal S8192x32x128 .f32) (x1 : FVec Ideal S8x4096 .f32) (b : Fin 8192) (h : Fin 8) :
    val_main_v3 (F := Ideal) x0 x1 (ix2 b h) = max (∑ k : Fin 4096, flatRow x0 b k * c2 x1 h k) z := by
  rw [val_main_v3_apply, v2_at, val_main_call0_v0_apply, val_main_call0_cst_apply]
  rfl

theorem v4_at (x2 : FVec Ideal S8x4096 .f32) (k : Fin 4096) (h : Fin 8) :
    val_main_v4 (F := Ideal) x2 (ix2 k h) = c2 x2 h k := by
  rw [val_main_v4_apply]
  congr 1
  funext a
  match a with
  | ⟨0, _⟩ => rfl
  | ⟨1, _⟩ => rfl

/-- The gate projection of row `b` onto hidden unit `h`. -/
theorem v5_at (x0 : FVec Ideal S8192x32x128 .f32) (x2 : FVec Ideal S8x4096 .f32) (b : Fin 8192) (h : Fin 8) :
    val_main_v5 (F := Ideal) x0 x2 (ix2 b h) = ∑ k : Fin 4096, flatRow x0 b k * c2 x2 h k := by
  rw [val_main_v5_apply]
  refine Finset.sum_congr rfl fun k _ => ?_
  have el : lidx_main_v5 (ix2 b h) k = ix2 b k := funext fun a => by
    match a with
    | ⟨0, _⟩ => rfl
    | ⟨1, _⟩ => rfl
  have er : ridx_main_v5 (ix2 b h) k = ix2 k h := funext fun a => by
    match a with
    | ⟨0, _⟩ => rfl
    | ⟨1, _⟩ => rfl
  rw [el, er, v0_at, v4_at]

/-- One hidden unit of the branch of width 8. -/
theorem v6_at (x0 : FVec Ideal S8192x32x128 .f32) (x1 x2 : FVec Ideal S8x4096 .f32) (b : Fin 8192) (h : Fin 8) :
    val_main_v6 (F := Ideal) x0 x1 x2 (ix2 b h) = unit (flatRow x0 b) (c2 x1 h) (c2 x2 h) := by
  rw [val_main_v6_apply, v3_at, v5_at]
  rfl

theorem v7_at (x3 : FVec Ideal S4096x8 .f32) (h : Fin 8) (f : Fin 4096) :
    val_main_v7 (F := Ideal) x3 (ix2 h f) = c2 x3 f h := by
  rw [val_main_v7_apply]
  congr 1
  funext a
  match a with
  | ⟨0, _⟩ => rfl
  | ⟨1, _⟩ => rfl

/-- The branch of width 8: its contribution to flat feature `f` of row `b`. -/
theorem v8_at (x0 : FVec Ideal S8192x32x128 .f32) (x1 x2 : FVec Ideal S8x4096 .f32) (x3 : FVec Ideal S4096x8 .f32)
    (b : Fin 8192) (f : Fin 4096) :
    val_main_v8 (F := Ideal) x0 x1 x2 x3 (ix2 b f)
      = delta (flatRow x0 b) (c2 x1) (c2 x2) (fun h => c2 x3 f h) := by
  rw [val_main_v8_apply]
  unfold delta
  refine Finset.sum_congr rfl fun h _ => ?_
  have el : lidx_main_v8 (ix2 b f) h = ix2 b h := funext fun a => by
    match a with
    | ⟨0, _⟩ => rfl
    | ⟨1, _⟩ => rfl
  have er : ridx_main_v8 (ix2 b f) h = ix2 h f := funext fun a => by
    match a with
    | ⟨0, _⟩ => rfl
    | ⟨1, _⟩ => rfl
  rw [el, er, v6_at, v7_at]

theorem v9_at (x4 : FVec Ideal S33x4096 .f32) (k : Fin 4096) (h : Fin 33) :
    val_main_v9 (F := Ideal) x4 (ix2 k h) = c2 x4 h k := by
  rw [val_main_v9_apply]
  congr 1
  funext a
  match a with
  | ⟨0, _⟩ => rfl
  | ⟨1, _⟩ => rfl

/-- The up-projection of row `b` onto hidden unit `h`. -/
theorem v10_at (x0 : FVec Ideal S8192x32x128 .f32) (x4 : FVec Ideal S33x4096 .f32) (b : Fin 8192) (h : Fin 33) :
    val_main_v10 (F := Ideal) x0 x4 (ix2 b h) = ∑ k : Fin 4096, flatRow x0 b k * c2 x4 h k := by
  rw [val_main_v10_apply]
  refine Finset.sum_congr rfl fun k _ => ?_
  have el : lidx_main_v10 (ix2 b h) k = ix2 b k := funext fun a => by
    match a with
    | ⟨0, _⟩ => rfl
    | ⟨1, _⟩ => rfl
  have er : ridx_main_v10 (ix2 b h) k = ix2 k h := funext fun a => by
    match a with
    | ⟨0, _⟩ => rfl
    | ⟨1, _⟩ => rfl
  rw [el, er, v0_at, v9_at]

/-- The rectified up-projection: the maximum with what the zero word denotes. -/
theorem v11_at (x0 : FVec Ideal S8192x32x128 .f32) (x4 : FVec Ideal S33x4096 .f32) (b : Fin 8192) (h : Fin 33) :
    val_main_v11 (F := Ideal) x0 x4 (ix2 b h) = max (∑ k : Fin 4096, flatRow x0 b k * c2 x4 h k) z := by
  rw [val_main_v11_apply, v10_at, val_main_call1_v0_apply, val_main_call1_cst_apply]
  rfl

theorem v12_at (x5 : FVec Ideal S33x4096 .f32) (k : Fin 4096) (h : Fin 33) :
    val_main_v12 (F := Ideal) x5 (ix2 k h) = c2 x5 h k := by
  rw [val_main_v12_apply]
  congr 1
  funext a
  match a with
  | ⟨0, _⟩ => rfl
  | ⟨1, _⟩ => rfl

/-- The gate projection of row `b` onto hidden unit `h`. -/
theorem v13_at (x0 : FVec Ideal S8192x32x128 .f32) (x5 : FVec Ideal S33x4096 .f32) (b : Fin 8192) (h : Fin 33) :
    val_main_v13 (F := Ideal) x0 x5 (ix2 b h) = ∑ k : Fin 4096, flatRow x0 b k * c2 x5 h k := by
  rw [val_main_v13_apply]
  refine Finset.sum_congr rfl fun k _ => ?_
  have el : lidx_main_v13 (ix2 b h) k = ix2 b k := funext fun a => by
    match a with
    | ⟨0, _⟩ => rfl
    | ⟨1, _⟩ => rfl
  have er : ridx_main_v13 (ix2 b h) k = ix2 k h := funext fun a => by
    match a with
    | ⟨0, _⟩ => rfl
    | ⟨1, _⟩ => rfl
  rw [el, er, v0_at, v12_at]

/-- One hidden unit of the branch of width 33. -/
theorem v14_at (x0 : FVec Ideal S8192x32x128 .f32) (x4 x5 : FVec Ideal S33x4096 .f32) (b : Fin 8192) (h : Fin 33) :
    val_main_v14 (F := Ideal) x0 x4 x5 (ix2 b h) = unit (flatRow x0 b) (c2 x4 h) (c2 x5 h) := by
  rw [val_main_v14_apply, v11_at, v13_at]
  rfl

theorem v15_at (x6 : FVec Ideal S4096x33 .f32) (h : Fin 33) (f : Fin 4096) :
    val_main_v15 (F := Ideal) x6 (ix2 h f) = c2 x6 f h := by
  rw [val_main_v15_apply]
  congr 1
  funext a
  match a with
  | ⟨0, _⟩ => rfl
  | ⟨1, _⟩ => rfl

/-- The branch of width 33: its contribution to flat feature `f` of row `b`. -/
theorem v16_at (x0 : FVec Ideal S8192x32x128 .f32) (x4 x5 : FVec Ideal S33x4096 .f32) (x6 : FVec Ideal S4096x33 .f32)
    (b : Fin 8192) (f : Fin 4096) :
    val_main_v16 (F := Ideal) x0 x4 x5 x6 (ix2 b f)
      = delta (flatRow x0 b) (c2 x4) (c2 x5) (fun h => c2 x6 f h) := by
  rw [val_main_v16_apply]
  unfold delta
  refine Finset.sum_congr rfl fun h _ => ?_
  have el : lidx_main_v16 (ix2 b f) h = ix2 b h := funext fun a => by
    match a with
    | ⟨0, _⟩ => rfl
    | ⟨1, _⟩ => rfl
  have er : ridx_main_v16 (ix2 b f) h = ix2 h f := funext fun a => by
    match a with
    | ⟨0, _⟩ => rfl
    | ⟨1, _⟩ => rfl
  rw [el, er, v14_at, v15_at]

/-! ## Where the scatter's updates land -/

/-- The reference's scatter: one index vector (two words), one update per batch row. -/
abbrev sd := scatter_S8192x32x128_S2_S8192_0_12_12_0

/-- The index vector's first word. -/
theorem v48_0 : val_main_v48 (F := Ideal) (ix1 (0 : Fin 2)) = 0#32 := by
  unfold val_main_v48
  rw [concatenate_pair_apply_left (0 : Fin S2.rank) _ _ Gen.concatenates_S1_S1_S2_d0 (ix1 (0 : Fin 2)) rfl (ix1 (0 : Fin 1))
    (fun b => by match b with | ⟨0, _⟩ => rfl)]
  rw [val_main_v46_apply, val_main_c_apply]

/-- The index vector's second word. -/
theorem v48_1 : val_main_v48 (F := Ideal) (ix1 (1 : Fin 2)) = 5#32 := by
  unfold val_main_v48
  rw [concatenate_pair_apply_right (0 : Fin S2.rank) _ _ Gen.concatenates_S1_S1_S2_d0 (ix1 (1 : Fin 2)) rfl rfl (ix1 (0 : Fin 1))
    (fun b hb => by match b with | ⟨0, _⟩ => exact absurd rfl hb) rfl]
  rw [val_main_v47_apply, val_main_c_5_apply]

theorem start0 (j : S8192.Idx) : sd.start j (val_main_v48 (F := Ideal)) 0 = 0 := by
  unfold ScatterDims.start
  rw [dif_neg (show ¬(0 : Fin S8192x32x128.rank) ∈ sd.scatterDimsToOperandDims by decide)]

theorem start1 (j : S8192.Idx) : sd.start j (val_main_v48 (F := Ideal)) 1 = 0 := by
  unfold ScatterDims.start
  rw [dif_pos (show (1 : Fin S8192x32x128.rank) ∈ sd.scatterDimsToOperandDims by decide)]
  have e : sd.siIdx j ⟨sd.scatterDimsToOperandDims.idxOf (1 : Fin S8192x32x128.rank), List.idxOf_lt_length_iff.2 (by decide)⟩ = ix1 (0 : Fin 2) :=
    funext fun a => by match a with | ⟨0, _⟩ => rfl
  rw [e, v48_0]
  rfl

theorem start2 (j : S8192.Idx) : sd.start j (val_main_v48 (F := Ideal)) 2 = 5 := by
  unfold ScatterDims.start
  rw [dif_pos (show (2 : Fin S8192x32x128.rank) ∈ sd.scatterDimsToOperandDims by decide)]
  have e : sd.siIdx j ⟨sd.scatterDimsToOperandDims.idxOf (2 : Fin S8192x32x128.rank), List.idxOf_lt_length_iff.2 (by decide)⟩ = ix1 (1 : Fin 2) :=
    funext fun a => by match a with | ⟨0, _⟩ => rfl
  rw [e, v48_1]
  rfl

theorem window0 (j : S8192.Idx) : sd.window j 0 = (j 0).val := by
  unfold ScatterDims.window
  rw [dif_pos (show (0 : Fin S8192x32x128.rank) ∈ sd.sKept by decide)]
  rfl

theorem window1 (j : S8192.Idx) : sd.window j 1 = 0 := by
  unfold ScatterDims.window
  rw [dif_neg (show ¬(1 : Fin S8192x32x128.rank) ∈ sd.sKept by decide)]

theorem window2 (j : S8192.Idx) : sd.window j 2 = 0 := by
  unfold ScatterDims.window
  rw [dif_neg (show ¬(2 : Fin S8192x32x128.rank) ∈ sd.sKept by decide)]

/-- Where update `j` lands: row `j`, position 0, channel 5. -/
theorem resultIdx_eq (j : S8192.Idx) :
    sd.resultIdx? j (val_main_v48 (F := Ideal)) = some (ix3 (j 0) (0 : Fin 32) (5 : Fin 128)) := by
  have hj : (j 0).val < 8192 := (j 0).isLt
  have hin : ∀ a, 0 ≤ sd.start j (val_main_v48 (F := Ideal)) a + sd.window j a
      ∧ sd.start j (val_main_v48 (F := Ideal)) a + sd.window j a < S8192x32x128.size a := by
    intro a
    match a with
    | ⟨0, _⟩ =>
      show 0 ≤ sd.start j (val_main_v48 (F := Ideal)) 0 + ((sd.window j 0 : Nat) : Int)
        ∧ sd.start j (val_main_v48 (F := Ideal)) 0 + ((sd.window j 0 : Nat) : Int) < ((8192 : Nat) : Int)
      rw [start0, window0]; exact ⟨by omega, by omega⟩
    | ⟨1, _⟩ =>
      show 0 ≤ sd.start j (val_main_v48 (F := Ideal)) 1 + ((sd.window j 1 : Nat) : Int)
        ∧ sd.start j (val_main_v48 (F := Ideal)) 1 + ((sd.window j 1 : Nat) : Int) < ((32 : Nat) : Int)
      rw [start1, window1]; exact ⟨by omega, by omega⟩
    | ⟨2, _⟩ =>
      show 0 ≤ sd.start j (val_main_v48 (F := Ideal)) 2 + ((sd.window j 2 : Nat) : Int)
        ∧ sd.start j (val_main_v48 (F := Ideal)) 2 + ((sd.window j 2 : Nat) : Int) < ((128 : Nat) : Int)
      rw [start2, window2]; exact ⟨by omega, by omega⟩
  unfold ScatterDims.resultIdx?
  rw [dif_pos hin]
  congr 1
  funext a
  match a with
  | ⟨0, _⟩ => exact Fin.ext (by show (sd.start j (val_main_v48 (F := Ideal)) 0 + sd.window j 0).toNat = (j 0).val; rw [start0, window0]; omega)
  | ⟨1, _⟩ => exact Fin.ext (by show (sd.start j (val_main_v48 (F := Ideal)) 1 + sd.window j 1).toNat = 0; rw [start1, window1]; omega)
  | ⟨2, _⟩ => exact Fin.ext (by show (sd.start j (val_main_v48 (F := Ideal)) 2 + sd.window j 2).toNat = 5; rw [start2, window2]; omega)

/-- Distinct updates land on distinct elements. -/
theorem land_injective : Function.Injective (fun j : S8192.Idx => ix3 (j 0) (0 : Fin 32) (5 : Fin 128)) := by
  intro j j' h
  have h0 : j 0 = j' 0 := congrFun h 0
  rw [eq_ix1 j, eq_ix1 j', h0]

/-- At position 0, channel 5 of row `b` the scatter adds update `b` to what is there. -/
theorem scatter_hit (X : FVec Ideal S8192x32x128 .f32) (C : FVec Ideal S8192 .f32) (b : Fin 8192) :
    Host.scatter sd (FloatOps.addf (F := Ideal) (φ := .f32)) X (val_main_v48 (F := Ideal)) C (ix3 b (0 : Fin 32) (5 : Fin 128))
      = X (ix3 b (0 : Fin 32) (5 : Fin 128)) + C (ix1 b) :=
  ScatterRead.scatter_apply_hit sd (FloatOps.addf (F := Ideal) (φ := .f32)) X (val_main_v48 (F := Ideal)) C
    (fun j => ix3 (j 0) (0 : Fin 32) (5 : Fin 128)) resultIdx_eq land_injective (ix1 b)

/-- Every other element of row `b` is left as it was: no update lands on it. -/
theorem scatter_miss (X : FVec Ideal S8192x32x128 .f32) (C : FVec Ideal S8192 .f32) (b : Fin 8192) (p : Fin 32) (q : Fin 128)
    (h : p.val * 128 + q.val ≠ 5) :
    Host.scatter sd (FloatOps.addf (F := Ideal) (φ := .f32)) X (val_main_v48 (F := Ideal)) C (ix3 b p q) = X (ix3 b p q) := by
  refine ScatterRead.scatter_apply_miss sd (FloatOps.addf (F := Ideal) (φ := .f32)) X (val_main_v48 (F := Ideal)) C
    (fun j => ix3 (j 0) (0 : Fin 32) (5 : Fin 128)) resultIdx_eq (ix3 b p q) (fun j hj => h ?_)
  have h1 : (0 : Fin 32) = p := congrFun hj 1
  have h2 : (5 : Fin 128) = q := congrFun hj 2
  rw [← h1, ← h2]
  rfl

/-! ## The result -/

/-- Both branches' contributions to flat feature `f` of row `b`, summed. -/
theorem v17_at (x0 : FVec Ideal S8192x32x128 .f32) (x1 x2 : FVec Ideal S8x4096 .f32) (x3 : FVec Ideal S4096x8 .f32)
    (x4 x5 : FVec Ideal S33x4096 .f32) (x6 : FVec Ideal S4096x33 .f32) (b : Fin 8192) (f : Fin 4096) :
    val_main_v17 (F := Ideal) x0 x1 x2 x3 x4 x5 x6 (ix2 b f)
      = delta (flatRow x0 b) (c2 x1) (c2 x2) (fun h => c2 x3 f h) + delta (flatRow x0 b) (c2 x4) (c2 x5) (fun h => c2 x6 f h) := by
  rw [val_main_v17_apply, v8_at, v16_at]
  rfl

/-- What the scatter updates: the input plus both branches, read at row `b`, position `p`, channel `q`, which is flat
    feature `p * 128 + q` of the row. -/
theorem v44_at (x0 : FVec Ideal S8192x32x128 .f32) (x1 x2 : FVec Ideal S8x4096 .f32) (x3 : FVec Ideal S4096x8 .f32)
    (x4 x5 : FVec Ideal S33x4096 .f32) (x6 : FVec Ideal S4096x33 .f32) (b : Fin 8192) (p : Fin 32) (q : Fin 128) :
    val_main_v44 (F := Ideal) x0 x1 x2 x3 x4 x5 x6 (ix3 b p q)
      = base (flatRow x0) (c2 x1) (c2 x2) (c2 x3) (c2 x4) (c2 x5) (c2 x6) b
          ⟨p.val * 128 + q.val, by have := p.isLt; have := q.isLt; omega⟩ := by
  have hb := b.isLt
  have hp := p.isLt
  have hq := q.isLt
  have e : idx_main_v43 (ix3 b p q) = ix2 b ⟨p.val * 128 + q.val, by omega⟩ := funext fun a => by
    match a with
    | ⟨0, _⟩ => exact Fin.ext (by show ((b.val * 32 + p.val) * 128 + q.val) / 4096 = b.val; omega)
    | ⟨1, _⟩ => exact Fin.ext (by show ((b.val * 32 + p.val) * 128 + q.val) % 4096 = p.val * 128 + q.val; omega)
  have ex : x0 (ix3 b p q) = flatRow x0 b ⟨p.val * 128 + q.val, by omega⟩ := by
    unfold flatRow
    congr 1
    funext a
    match a with
    | ⟨0, _⟩ => rfl
    | ⟨1, _⟩ => exact Fin.ext (by show p.val = (p.val * 128 + q.val) / 128; omega)
    | ⟨2, _⟩ => exact Fin.ext (by show q.val = (p.val * 128 + q.val) % 128; omega)
  rw [val_main_v44_apply, val_main_v43_apply, e, v17_at, ex]
  rfl

/-- The reference's result at row `b`, position `p`, channel `q`: the scatter adds update `b` at position 0, channel 5
    of row `b` and leaves every other element of the row as it was. -/
theorem ref_apply (x0 : FVec Ideal S8192x32x128 .f32) (x1 x2 : FVec Ideal S8x4096 .f32) (x3 : FVec Ideal S4096x8 .f32)
    (x4 x5 : FVec Ideal S33x4096 .f32) (x6 : FVec Ideal S4096x33 .f32) (x7 : FVec Ideal S32 .f32)
    (b : Fin 8192) (p : Fin 32) (q : Fin 128) :
    val_main_v49 (F := Ideal) x0 x1 x2 x3 x4 x5 x6 x7 (ix3 b p q)
      = target (flatRow x0) (c2 x1) (c2 x2) (c2 x3) (c2 x4) (c2 x5) (c2 x6)
          (fun b' => val_main_v45 (F := Ideal) x0 x7 (ix1 b')) b
          ⟨p.val * 128 + q.val, by have := p.isLt; have := q.isLt; omega⟩ := by
  have hp := p.isLt
  have hq := q.isLt
  unfold val_main_v49 target
  by_cases h5 : p.val * 128 + q.val = 5
  · -- the patched element: p = 0 and q = 5
    have hp0 : p = (0 : Fin 32) := Fin.ext (by show p.val = 0; omega)
    have hq5 : q = (5 : Fin 128) := Fin.ext (by show q.val = 5; omega)
    have hidx : ix3 b p q = ix3 b (0 : Fin 32) (5 : Fin 128) := by rw [hp0, hq5]
    rw [if_pos h5, ← v44_at x0 x1 x2 x3 x4 x5 x6 b p q, hidx, scatter_hit]
  · rw [if_neg h5, ← v44_at x0 x1 x2 x3 x4 x5 x6 b p q, scatter_miss _ _ b p q h5]

end Cert.ReferenceIdeal.RefValue

end
-- ==== Proof.lean ====
/-
  The certificate: a fused two-branch gated feed-forward kernel against its jnp reference, over the extended reals.

  Both programs compute, for each of 8192 rows `x` of 4096 features, `x` plus the contributions of two gated
  feed-forward branches (hidden widths 8 and 33: a hidden unit is the rectified up-projection times the gate
  projection, a contribution the units times their down weights, summed), and then add a per-row correction (a
  softmax-style reciprocal times the row's opcode channel) at position 0, channel 5 of the row.

  The reference runs the two branches one after the other and adds their results; the kernel stacks the two
  branches' weights into ONE branch of width 41 and runs that. A sum over 41 hidden units is the sum over the first
  8 plus the sum over the other 33, by associativity and commutativity of addition alone, so the two agree on every
  extended real, the infinities included: the precondition is not used. The correction is computed by both programs
  with the same operations and the same five literal words, so it is carried as one unopened term; the reference
  adds it with a scatter whose 8192 updates land on distinct elements, the kernel by a second store over column 5
  of each 256-row output block.

  The three frames are the generated ones (the reference's is its generated run with the result dropped); the
  idealization rewrote nothing, so `preserves` is trivial.
-/
import proofs.«403129_j46548855554094_3_alg».proof.Defs
import proofs.«403129_j46548855554094_3_alg».proof.Proof.Gen.Kernel
import proofs.«403129_j46548855554094_3_alg».proof.Proof.Gen.Kernel.Skeleton
import proofs.«403129_j46548855554094_3_alg».proof.Proof.Gen.Kernel.Launch
import proofs.«403129_j46548855554094_3_alg».proof.Proof.Gen.Kernel.Points
import proofs.«403129_j46548855554094_3_alg».proof.Proof.Gen.Kernel.Frame
import proofs.«403129_j46548855554094_3_alg».proof.Proof.Gen.KernelIdeal
import proofs.«403129_j46548855554094_3_alg».proof.Proof.Gen.KernelIdeal.Skeleton
import proofs.«403129_j46548855554094_3_alg».proof.Proof.Gen.KernelIdeal.Launch
import proofs.«403129_j46548855554094_3_alg».proof.Proof.Gen.KernelIdeal.Points
import proofs.«403129_j46548855554094_3_alg».proof.Proof.Gen.KernelIdeal.Frame
import proofs.«403129_j46548855554094_3_alg».proof.Proof.Gen.ReferenceIdeal
import proofs.«403129_j46548855554094_3_alg».proof.Proof.Gen.ReferenceIdeal.Run
import proofs.«403129_j46548855554094_3_alg».proof.Proof.Gen.ReferenceIdeal.Read
import proofs.«403129_j46548855554094_3_alg».proof.Proof.Gen.Pre_finite_inputs
import proofs.«403129_j46548855554094_3_alg».proof.Proof.KernelValue
import proofs.«403129_j46548855554094_3_alg».proof.Proof.KernelResult
import proofs.«403129_j46548855554094_3_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and keeps its arguments: the generated frame. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs end at the shared target, element by element. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => shapeCast _ (Cert.KernelIdeal.Arr.outArr m c) Cert.KernelIdeal.Gen.shapeCasts_S8192x4096_S8192x32x128,
    Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v49_eq, h0, h1, h2, h3, h4, h5, h6, h7]
  funext i
  obtain ⟨b, p, q, rfl⟩ : ∃ (b : Fin 8192) (p : Fin 32) (q : Fin 128), i = ix3 b p q := ⟨i 0, i 1, i 2, eq_ix3 i⟩
  refine (Cert.ReferenceIdeal.RefValue.ref_apply _ _ _ _ _ _ _ _ b p q).trans ?_
  exact (Cert.KernelIdeal.Result.result_apply m c b p q).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
